-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x4096 .f32) (main_arg3 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩
abbrev S_ : Shape := ⟨0, ![]⟩
abbrev S4096 : Shape := ⟨1, ![4096]⟩
abbrev S8192 : Shape := ⟨1, ![8192]⟩
abbrev S1 : Shape := ⟨1, ![1]⟩

abbrev nBuf : Space → Nat
  | .hbm => 30
  | .vmem => 21
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S8192, .f32⟩
  | .hbm, ⟨29, _⟩ => ⟨S8192, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x512, .f32⟩
  | .local _ .vmem, ⟨8, _⟩ => ⟨S1024x512, .f32⟩
  | .local _ .vmem, ⟨9, _⟩ => ⟨S512x1024, .f32⟩
  | .local _ .vmem, ⟨10, _⟩ => ⟨S512x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x512, .f32⟩
  | .local _ .vmem, ⟨15, _⟩ => ⟨S1024x512, .f32⟩
  | .local _ .vmem, ⟨16, _⟩ => ⟨S512x1024, .f32⟩
  | .local _ .vmem, ⟨17, _⟩ => ⟨S512x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 4, 8], ![false, false, false]⟩

def k2_cond2 (i : grid2.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reducesTo_S4096x4096_S4096_d1 : S4096x4096.ReducesTo [1] S4096
  h_S_ : 0 < S_.numel
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .f32 = 32 ∨ (Rect.block (s := S4096x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .f32 = 32 ∨ (Rect.block (s := S4096x4096) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .f32 = 32 ∨ (Rect.block (s := S4096x4096) S1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x4096.size a
  hwx2_0 : ∀ i : grid2.Coords, EltTy.bits .f32 = 32 ∨ (Rect.block (s := S4096x4096) S1024x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .f32 = 32 ∨ (Rect.block (s := S4096x4096) S512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg3) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩
abbrev S8192 : Shape := ⟨1, ![8192]⟩
abbrev S1 : Shape := ⟨1, ![1]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S8192, .f32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S8192, .f32⟩
  | .hbm, ⟨32, _⟩ => ⟨S8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibWhole.lean ====
/-
  Whole-buffer accesses. A store through the rectangle of a buffer's own sizes at zero offsets overwrites every
  entry, so the buffer then reads as the stored value whatever it held before; a load through the same rectangle
  reads the contents unchanged. Stated once over an abstract shape, so that a use at a large literal shape is a
  rewrite and never an evaluation over the shape's entries.
-/
import Idealize.ShloMosaic.Lib.Pipeline.FrameBody
import Idealize.ShloMosaic.Lib.Pipeline.Value

noncomputable section

namespace Idealize.ShloMosaic.View

variable {Val : EltTy → Type} [∀ e, Nonempty (Val e)] {S : Shape} {e : EltTy}
variable {sig : RefSig} {κ : Kind} {sp : Space}

/-- After a store of `w` through the whole-shape rectangle, LAST of any stores, the buffer reads as `w`, whatever it
    held and whatever the earlier stores were. -/
theorem read_writes_unit_zero (v : View sig κ sp S e) (f : v.ty.Contents Val) {off : Fin S.rank → Nat}
    (h : off = fun _ => 0) (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.mem_cons_self, mem_set_unit_zero h inb y⟩),
    canon_cons_unit_zero h]

/-- A load through the whole-shape rectangle of a buffer that reads as `X` is `X`. -/
theorem readAt_unit_zero (v : View sig κ sp S e) (f : v.ty.Contents Val) {off : Fin S.rank → Nat}
    (h : off = fun _ => 0) (inb : ∀ a, off a + S.size a ≤ S.size a) (X : S.Idx → Val e)
    (hX : v.read Val f = X) : v.readAt Val (Rect.unit off S.size inb).toLoadRect f = X := by
  rw [readAt_eq_ld, hX, ld_unit_zero h]

end Idealize.ShloMosaic.View

end
-- ==== Proof.K.Cases.lean ====
/-
  The grids of the three products. Each product `tanh (W · h)` of 4096 × 4096 matrices runs over a grid of
  4 × 4 × 8 points: a 1024 × 1024 block of the result for each of the first two coordinates, and for the third the
  eight 512-wide blocks of the contracted axis, innermost. A running product lives in a buffer of the kernel's own
  between the eight points of one result block: reset at the first, added to at every point, and passed through the
  hyperbolic tangent into the result's block at the last. Decided here, once per product, over the 128 points: where
  the two branches are taken, and where the result's window is idle.
-/
import proofs.«122110_j65481071399768_1_alg».proof.Proof.Gen.Kernel.Launch
import proofs.«122110_j65481071399768_1_alg».proof.Proof.Gen.Kernel.Skeleton
import proofs.«122110_j65481071399768_1_alg».proof.Proof.Gen.Kernel.Points
import proofs.«122110_j65481071399768_1_alg».proof.Proof.LibWhole
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 0: which points reset the running product, and which write the result -/

/-- The first branch of the body of region 0: taken where the contraction's block index, the grid's last
    coordinate, is 0 — the running product is reset to zero there. -/
abbrev cond0_0 (i : grid0.Coords) : Prop := (Scalar.cmpi .ne (Scalar.extui (Scalar.cmpi .eq (BitVec.ofNat 32 (i 2).val) 0#32)) 0#32) = 1#1
/-- The grid runs the contraction's 8 blocks innermost: the reset is at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch: taken at the contraction's last block, where the hyperbolic tangent of the finished
    product is stored into the result's block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The two operand windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the contraction's last block the result's window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last block it is live. -/
theorem liveAt0_2 : ∀ t : Fin cfg0.N, cond0_1 (grid0.coords t) → cfg0.idle 2 (grid0.coords t) = false := by decide +kernel

/-- The staging buffers the body is called with at point `t`, and the buffer the running product lives in. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev acc0 : Memref sig .tc .vmem S1024x1024 .f32 := Memref.whole cc0_scratch0

/-! ## Region 1: which points reset the running product, and which write the result -/

/-- The first branch of the body of region 1: taken where the contraction's block index, the grid's last
    coordinate, is 0 — the running product is reset to zero there. -/
abbrev cond1_0 (i : grid1.Coords) : Prop := (Scalar.cmpi .ne (Scalar.extui (Scalar.cmpi .eq (BitVec.ofNat 32 (i 2).val) 0#32)) 0#32) = 1#1
/-- The grid runs the contraction's 8 blocks innermost: the reset is at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch: taken at the contraction's last block, where the hyperbolic tangent of the finished
    product is stored into the result's block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The two operand windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the contraction's last block the result's window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last block it is live. -/
theorem liveAt1_2 : ∀ t : Fin cfg1.N, cond1_1 (grid1.coords t) → cfg1.idle 2 (grid1.coords t) = false := by decide +kernel

/-- The staging buffers the body is called with at point `t`, and the buffer the running product lives in. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev acc1 : Memref sig .tc .vmem S1024x1024 .f32 := Memref.whole cc1_scratch0

/-! ## Region 2: which points reset the running product, and which write the result -/

/-- The first branch of the body of region 2: taken where the contraction's block index, the grid's last
    coordinate, is 0 — the running product is reset to zero there. -/
abbrev cond2_0 (i : grid2.Coords) : Prop := (Scalar.cmpi .ne (Scalar.extui (Scalar.cmpi .eq (BitVec.ofNat 32 (i 2).val) 0#32)) 0#32) = 1#1
/-- The grid runs the contraction's 8 blocks innermost: the reset is at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The second branch: taken at the contraction's last block, where the hyperbolic tangent of the finished
    product is stored into the result's block. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- The two operand windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the contraction's last block the result's window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last block it is live. -/
theorem liveAt2_2 : ∀ t : Fin cfg2.N, cond2_1 (grid2.coords t) → cfg2.idle 2 (grid2.coords t) = false := by decide +kernel

/-- The staging buffers the body is called with at point `t`, and the buffer the running product lives in. -/
abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
abbrev acc2 : Memref sig .tc .vmem S1024x1024 .f32 := Memref.whole cc2_scratch0

end Cert.Kernel.Hand

end
-- ==== Proof.K.Step0.lean ====
/-
  One grid step of the product number 0, on whole staging buffers: what each buffer holds afterwards, in the three
  cases the grid's last coordinate selects.
-/
import proofs.«122110_j65481071399768_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One grid step of product 0

The body on whole buffers, case by case. `x0` is the block of the left matrix and `x1` the block of the right one;
`k0_pay2 x0 x1 s` is the running product `s` plus the product of the two blocks, `k0_pay1` the zero block, and
`k0_pay3` the hyperbolic tangent entry by entry. Every load and store is of a whole buffer, so each buffer ends
holding exactly the last value stored into it. -/

set_option maxHeartbeats 1000000 in
/-- At the first block of the contraction: whatever the running product's buffer held, it ends at zero plus the
    blocks' product; the result's block is not touched. -/
theorem step0_first (c : Dev nD) (E : Set ℕ) (i : grid0.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : cond0_0 i) (hc1 : ¬cond0_1 i)
    (x0 : Vec F S1024x512 .f32) (x1 : Vec F S512x1024 .f32) (y : Vec F S1024x1024 .f32) (K : PUnit → sProp 𝕄) :
    iprop(owns (c : Thread nD τ) arg3 fullShare x0 ∗ owns (c : Thread nD τ) arg4 fullShare x1
        ∗ owns (c : Thread nD τ) arg5 fullShare y ∗ (∃ s, owns (c : Thread nD τ) arg6 fullShare s)
        ∗ (iprop(owns (c : Thread nD τ) arg3 fullShare x0 ∗ owns (c : Thread nD τ) arg4 fullShare x1
            ∗ owns (c : Thread nD τ) arg5 fullShare y ∗ owns (c : Thread nD τ) arg6 fullShare (k0_pay2 x0 x1 k0_pay1)) -∗ K ⟨⟩))
      ⊢ wp frame (wpE (defs₀ (F := F)) Variants.none c none) E (cc0__matmul_tanh_kernel i arg3 harg3 arg4 harg4 arg5 harg5 arg6 harg6) K := by
  simp only [cc0__matmul_tanh_kernel_eq_skeleton]; unfold cc0__matmul_tanh_kernel_skel
  unfold owns
  iintro ⟨⟨%f0, %hf0, H0⟩, ⟨%f1, %hf1, H1⟩, ⟨%f2, %hf2, H2⟩, ⟨%s, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readCov_unit_zero (S := S1024x1024) _ hz]

set_option maxHeartbeats 1000000 in
/-- At a middle block: the running product `s` gains the blocks' product; the result's block is not touched. -/
theorem step0_mid (c : Dev nD) (E : Set ℕ) (i : grid0.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond0_0 i) (hc1 : ¬cond0_1 i)
    (x0 : Vec F S1024x512 .f32) (x1 : Vec F S512x1024 .f32) (y : Vec F S1024x1024 .f32) (s : Vec F S1024x1024 .f32) (K : PUnit → sProp 𝕄) :
    iprop(owns (c : Thread nD τ) arg3 fullShare x0 ∗ owns (c : Thread nD τ) arg4 fullShare x1
        ∗ owns (c : Thread nD τ) arg5 fullShare y ∗ owns (c : Thread nD τ) arg6 fullShare s
        ∗ (iprop(owns (c : Thread nD τ) arg3 fullShare x0 ∗ owns (c : Thread nD τ) arg4 fullShare x1
            ∗ owns (c : Thread nD τ) arg5 fullShare y ∗ owns (c : Thread nD τ) arg6 fullShare (k0_pay2 x0 x1 s)) -∗ K ⟨⟩))
      ⊢ wp frame (wpE (defs₀ (F := F)) Variants.none c none) E (cc0__matmul_tanh_kernel i arg3 harg3 arg4 harg4 arg5 harg5 arg6 harg6) K := by
  simp only [cc0__matmul_tanh_kernel_eq_skeleton]; unfold cc0__matmul_tanh_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

set_option maxHeartbeats 1000000 in
/-- At the last block: the running product gains the blocks' product, and its hyperbolic tangent is stored into the
    result's block, whatever that held. -/
theorem step0_last (c : Dev nD) (E : Set ℕ) (i : grid0.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond0_0 i) (hc1 : cond0_1 i)
    (x0 : Vec F S1024x512 .f32) (x1 : Vec F S512x1024 .f32) (s : Vec F S1024x1024 .f32) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare s
        ∗ (iprop(owns (c : Thread nD τ) arg3 fullShare x0 ∗ owns (c : Thread nD τ) arg4 fullShare x1
            ∗ owns (c : Thread nD τ) arg5 fullShare (k0_pay3 (k0_pay2 x0 x1 s)) ∗ owns (c : Thread nD τ) arg6 fullShare (k0_pay2 x0 x1 s)) -∗ K ⟨⟩))
      ⊢ wp frame (wpE (defs₀ (F := F)) Variants.none c none) E (cc0__matmul_tanh_kernel i arg3 harg3 arg4 harg4 arg5 harg5 arg6 harg6) K := by
  simp only [cc0__matmul_tanh_kernel_eq_skeleton]; unfold cc0__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    have hz : (![0, 0] : Fin 2 → Nat) = fun _ => 0 := by funext a; fin_cases a <;> rfl
    rw [View.read_writes_unit_zero _ _ hz, View.readCov_unit_zero (S := S1024x1024) _ hz]
    rw [View.readAt_unit_zero _ _ hz _ _ (harg3.read_unread _), View.readAt_unit_zero _ _ hz _ _ (harg4.read_unread _), View.readAt_unit_zero _ _ hz _ _ (harg6.read_unread _)]
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

end Cert.Kernel.Hand

end
-- ==== Proof.K.Dat0.lean ====
/-
  Product 0 as a pipeline: the blocks its windows carry, the running product point by point, and the proof data the
  pipeline rule takes (what each staging buffer holds after the body; the invariant carrying the running product).
-/
import proofs.«122110_j65481071399768_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the unscoped buffers' contents when the product is entered
variable (V : (c : Dev nD) → (b : Ref sig .tc) → Buf (Elt F) ((c : Thread nD τ).loc b))

/-! ## Product 0: the blocks, the running product, and the proof data -/

/-- Window `w`'s block at point `t`, read off its matrix as the product finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's 1024 × 512 block and the right matrix's 512 × 1024 block at point `t`. -/
abbrev lblk0 (c : Dev nD) (t : Fin cfg0.N) : Vec F S1024x512 .f32 := iblk0 V c 0 t
abbrev rblk0 (c : Dev nD) (t : Fin cfg0.N) : Vec F S512x1024 .f32 := iblk0 V c 1 t

/-- THE RUNNING PRODUCT after point `n`: at a point ≡ 0 (mod 8) zero plus the blocks' product, at every other point
    what the point before left plus the blocks' product. -/
def accAt0 (c : Dev nD) : (n : ℕ) → n < cfg0.N → Vec F S1024x1024 .f32
  | 0, hn => k0_pay2 (lblk0 V c ⟨0, hn⟩) (rblk0 V c ⟨0, hn⟩) k0_pay1
  | n + 1, hn =>
    if (n + 1) % 8 = 0 then k0_pay2 (lblk0 V c ⟨n + 1, hn⟩) (rblk0 V c ⟨n + 1, hn⟩) k0_pay1
    else k0_pay2 (lblk0 V c ⟨n + 1, hn⟩) (rblk0 V c ⟨n + 1, hn⟩) (accAt0 c n (Nat.lt_of_succ_lt hn))

theorem accAt0_first (c : Dev nD) (t : Fin cfg0.N) (h : t.val % 8 = 0) :
    accAt0 V c t.val t.isLt = k0_pay2 (lblk0 V c t) (rblk0 V c t) k0_pay1 := by
  obtain ⟨n, hn⟩ := t
  cases n with
  | zero => rfl
  | succ n => exact if_pos h

theorem accAt0_next (c : Dev nD) (t : Fin cfg0.N) (h : ¬t.val % 8 = 0) :
    accAt0 V c t.val t.isLt
      = k0_pay2 (lblk0 V c t) (rblk0 V c t) (accAt0 V c (t.val - 1) (Nat.lt_of_le_of_lt (Nat.sub_le _ _) t.isLt)) := by
  obtain ⟨n, hn⟩ := t
  cases n with
  | zero => exact absurd (Nat.zero_mod _) h
  | succ n => exact if_neg h

/-- The kernel's other scoped buffers — the staging buffers and running products of the other two products —, each at
    some contents: they ride through this product untouched. -/
def rest0 (c : Dev nD) : sProp 𝕄 :=
  Pipeline.scopedRestBut (Ix := Unit) (Name := ℕ) (U := UR sig nD τ) (Lvl := ℕ) (Val := Elt F) spec0 c [cc0_scratch0]

/-- What the product is entered with beside its windows: the running product's buffer at anything, the other scoped
    buffers, the generator register. -/
theorem PhiA0_eq (c : Dev nD) :
    (Pipeline.ΦA spec0 c : sProp 𝕄)
      = iprop(((∃ d, owns (c : Thread nD τ) acc0 fullShare d) ∗ rest0 c) ∗ ∃ r, prngReg c r) := by
  unfold Pipeline.ΦA rest0
  rw [Pipeline.scopedRest_split_of_list spec0 c [cc0_scratch0] (by decide) (by decide)]
  simp only [acc0, owns_whole, bigSepL]
  try rfl

/-- The invariant between points: before the first the buffer of the running product holds anything; after point `n`
    it holds the running product there. -/
def PhiS0 (c : Dev nD) : (n : ℕ) → n ≤ cfg0.N → sProp 𝕄
  | 0, _ => Pipeline.ΦA spec0 c
  | n + 1, hn => iprop((owns (c : Thread nD τ) acc0 fullShare (accAt0 V c n hn) ∗ rest0 c) ∗ ∃ r, prngReg c r)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) acc0 fullShare (accAt0 V c n hn) ∗ rest0 c) ∗ ∃ r, prngReg c r) := rfl

theorem PhiS0_pos (c : Dev nD) (n : ℕ) (h : n ≤ cfg0.N) (hz : n ≠ 0) :
    PhiS0 V c n h = iprop((owns (c : Thread nD τ) acc0 fullShare (accAt0 V c (n - 1) (by omega)) ∗ rest0 c) ∗ ∃ r, prngReg c r) := by
  cases n with
  | zero => exact absurd rfl hz
  | succ n => rfl

/-- The proof data of product 0: the matrices as the product finds them; after the body each operand's staging
    buffer still at its block, the result's at the hyperbolic tangent of the running product (consulted only at the
    points that write the block back); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]

/-- Each operand's current staging buffer holds its block at every point: it is fetched at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end

end Cert.Kernel.Hand

end
-- ==== Proof.K.Body0.lean ====
/-
  Product 0: the body obligation of the pipeline rule. At each of the 128 grid points the body, run on the current
  staging buffers, turns the invariant before the point into the invariant after it and leaves each window's buffer
  as the proof data say.
-/
import proofs.«122110_j65481071399768_1_alg».proof.Proof.K.Step0
import proofs.«122110_j65481071399768_1_alg».proof.Proof.K.Dat0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Product 0: the body at a generic point -/

/-- What the body is called with at point `t`: the invariant, the core owing nothing, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The operands' buffers are handed back at their blocks. -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
/-- Away from a run's last point the result's buffer is handed back as it came; at the last point it holds the
    hyperbolic tangent of the finished product. -/
theorem leaves0_2_idle (c : Dev nD) (t : Fin cfg0.N) (hc1 : ¬cond0_1 (grid0.coords t)) :
    (dat0 V c).leavesExact 2 t = iprop(∃ d, owns (c : Thread nD τ) (ms0_2 t) fullShare ((dat0 V c).before 2 t d)) :=
  Dat.leavesExact_idle (dat0 V c) 2 t (idleAt0_2 t hc1) (noFlush0_2 t hc1)
theorem leaves0_2_live (c : Dev nD) (t : Fin cfg0.N) (hc1 : cond0_1 (grid0.coords t)) :
    (dat0 V c).leavesExact 2 t = owns (c : Thread nD τ) (ms0_2 t) fullShare (k0_pay3 (accAt0 V c t.val t.isLt)) := by
  rw [show (dat0 V c).leavesExact 2 t = owns (c : Thread nD τ) (ms0_2 t) fullShare ((dat0 V c).after 2 t) from by
    unfold Dat.leavesExact; rw [liveAt0_2 t hc1], after0_2]

set_option maxHeartbeats 4000000 in
/-- The body at any point. The point's place in its run of eight selects the case; the operands' buffers hold their
    blocks; the invariant hands over the running product as the point before left it (anything, at a run's first
    point) and takes it back as this point leaves it; away from a run's last point the result's buffer goes back as
    it came, at the last it holds the hyperbolic tangent of the finished product. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1]
  have hN : t.val < 128 := lt_of_lt_of_eq t.isLt (show cfg0.N = 128 from N_0)
  by_cases h0 : t.val % 8 = 0
  · have hc0 : cond0_0 (grid0.coords t) := (hcond0_0 t).mpr h0
    have hc1 : ¬cond0_1 (grid0.coords t) := fun h => by have := (hcond0_1 t).mp h; omega
    rw [leaves0_2_idle V c t hc1, accAt0_first V c t h0]
    by_cases hz : t.val = 0
    · rw [Phi0_castSucc V c t, PhiS0_zero V c _ _ hz, PhiA0_eq]
      iintro ⟨⟨⟨HS, Hr⟩, Hg⟩, Ho, ⟨%d0, H0⟩, ⟨%d1, H1⟩, ⟨%d2, H2⟩⟩
      iapply (step0_first c Set.univ (grid0.coords t) _ _ _ _ _ _ _ _ hc0 hc1 (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [Phi0_castSucc V c t, PhiS0_pos V c _ _ hz]
      iintro ⟨⟨⟨HS, Hr⟩, Hg⟩, Ho, ⟨%d0, H0⟩, ⟨%d1, H1⟩, ⟨%d2, H2⟩⟩
      iapply (step0_first c Set.univ (grid0.coords t) _ _ _ _ _ _ _ _ hc0 hc1 (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun h => h0 (by rw [h])
    rw [accAt0_next V c t h0, Phi0_castSucc V c t, PhiS0_pos V c _ _ hz]
    by_cases h1 : t.val % 8 = 7
    · have hc1 : cond0_1 (grid0.coords t) := (hcond0_1 t).mpr h1
      rw [leaves0_2_live V c t hc1, accAt0_next V c t h0]
      iintro ⟨⟨⟨HS, Hr⟩, Hg⟩, Ho, ⟨%d0, H0⟩, ⟨%d1, H1⟩, ⟨%d2, H2⟩⟩
      iapply (step0_last c Set.univ (grid0.coords t) _ _ _ _ _ _ _ _ hc0 hc1 (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond0_1 (grid0.coords t) := fun h => h1 ((hcond0_1 t).mp h)
      rw [leaves0_2_idle V c t hc1]
      iintro ⟨⟨⟨HS, Hr⟩, Hg⟩, Ho, ⟨%d0, H0⟩, ⟨%d1, H1⟩, ⟨%d2, H2⟩⟩
      iapply (step0_mid c Set.univ (grid0.coords t) _ _ _ _ _ _ _ _ hc0 hc1 (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-- Entering the product: what the kernel region starts with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- Leaving it: the running product's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hr⟩, Hg⟩
  isplitl [HS Hr]
  · isplitl [HS]; · iexists _; iexact HS
    iexact Hr
  iexact Hg

end

end Cert.Kernel.Hand

end
-- ==== Proof.K.Step1.lean ====
/-
  One grid step of the product number 1, on whole staging buffers: what each buffer holds afterwards, in the three
  cases the grid's last coordinate selects.
-/
import proofs.«122110_j65481071399768_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One grid step of product 1

The body on whole buffers, case by case. `x0` is the block of the left matrix and `x1` the block of the right one;
`k1_pay2 x0 x1 s` is the running product `s` plus the product of the two blocks, `k1_pay1` the zero block, and
`k1_pay3` the hyperbolic tangent entry by entry. Every load and store is of a whole buffer, so each buffer ends
holding exactly the last value stored into it. -/

set_option maxHeartbeats 1000000 in
/-- At the first block of the contraction: whatever the running product's buffer held, it ends at zero plus the
    blocks' product; the result's block is not touched. -/
theorem step1_first (c : Dev nD) (E : Set ℕ) (i : grid1.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : cond1_0 i) (hc1 : ¬cond1_1 i)
    (x0 : Vec F S1024x512 .f32) (x1 : Vec F S512x1024 .f32) (y : Vec F S1024x1024 .f32) (K : PUnit → sProp 𝕄) :
    iprop(owns (c : Thread nD τ) arg3 fullShare x0 ∗ owns (c : Thread nD τ) arg4 fullShare x1
        ∗ owns (c : Thread nD τ) arg5 fullShare y ∗ (∃ s, owns (c : Thread nD τ) arg6 fullShare s)
        ∗ (iprop(owns (c : Thread nD τ) arg3 fullShare x0 ∗ owns (c : Thread nD τ) arg4 fullShare x1
            ∗ owns (c : Thread nD τ) arg5 fullShare y ∗ owns (c : Thread nD τ) arg6 fullShare (k1_pay2 x0 x1 k1_pay1)) -∗ K ⟨⟩))
      ⊢ wp frame (wpE (defs₀ (F := F)) Variants.none c none) E (cc1__matmul_tanh_kernel i arg3 harg3 arg4 harg4 arg5 harg5 arg6 harg6) K := by
  simp only [cc1__matmul_tanh_kernel_eq_skeleton]; unfold cc1__matmul_tanh_kernel_skel
  unfold owns
  iintro ⟨⟨%f0, %hf0, H0⟩, ⟨%f1, %hf1, H1⟩, ⟨%f2, %hf2, H2⟩, ⟨%s, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readCov_unit_zero (S := S1024x1024) _ hz]

set_option maxHeartbeats 1000000 in
/-- At a middle block: the running product `s` gains the blocks' product; the result's block is not touched. -/
theorem step1_mid (c : Dev nD) (E : Set ℕ) (i : grid1.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond1_0 i) (hc1 : ¬cond1_1 i)
    (x0 : Vec F S1024x512 .f32) (x1 : Vec F S512x1024 .f32) (y : Vec F S1024x1024 .f32) (s : Vec F S1024x1024 .f32) (K : PUnit → sProp 𝕄) :
    iprop(owns (c : Thread nD τ) arg3 fullShare x0 ∗ owns (c : Thread nD τ) arg4 fullShare x1
        ∗ owns (c : Thread nD τ) arg5 fullShare y ∗ owns (c : Thread nD τ) arg6 fullShare s
        ∗ (iprop(owns (c : Thread nD τ) arg3 fullShare x0 ∗ owns (c : Thread nD τ) arg4 fullShare x1
            ∗ owns (c : Thread nD τ) arg5 fullShare y ∗ owns (c : Thread nD τ) arg6 fullShare (k1_pay2 x0 x1 s)) -∗ K ⟨⟩))
      ⊢ wp frame (wpE (defs₀ (F := F)) Variants.none c none) E (cc1__matmul_tanh_kernel i arg3 harg3 arg4 harg4 arg5 harg5 arg6 harg6) K := by
  simp only [cc1__matmul_tanh_kernel_eq_skeleton]; unfold cc1__matmul_tanh_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

set_option maxHeartbeats 1000000 in
/-- At the last block: the running product gains the blocks' product, and its hyperbolic tangent is stored into the
    result's block, whatever that held. -/
theorem step1_last (c : Dev nD) (E : Set ℕ) (i : grid1.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond1_0 i) (hc1 : cond1_1 i)
    (x0 : Vec F S1024x512 .f32) (x1 : Vec F S512x1024 .f32) (s : Vec F S1024x1024 .f32) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare s
        ∗ (iprop(owns (c : Thread nD τ) arg3 fullShare x0 ∗ owns (c : Thread nD τ) arg4 fullShare x1
            ∗ owns (c : Thread nD τ) arg5 fullShare (k1_pay3 (k1_pay2 x0 x1 s)) ∗ owns (c : Thread nD τ) arg6 fullShare (k1_pay2 x0 x1 s)) -∗ K ⟨⟩))
      ⊢ wp frame (wpE (defs₀ (F := F)) Variants.none c none) E (cc1__matmul_tanh_kernel i arg3 harg3 arg4 harg4 arg5 harg5 arg6 harg6) K := by
  simp only [cc1__matmul_tanh_kernel_eq_skeleton]; unfold cc1__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    have hz : (![0, 0] : Fin 2 → Nat) = fun _ => 0 := by funext a; fin_cases a <;> rfl
    rw [View.read_writes_unit_zero _ _ hz, View.readCov_unit_zero (S := S1024x1024) _ hz]
    rw [View.readAt_unit_zero _ _ hz _ _ (harg3.read_unread _), View.readAt_unit_zero _ _ hz _ _ (harg4.read_unread _), View.readAt_unit_zero _ _ hz _ _ (harg6.read_unread _)]
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

end Cert.Kernel.Hand

end
-- ==== Proof.K.Dat1.lean ====
/-
  Product 1 as a pipeline: the blocks its windows carry, the running product point by point, and the proof data the
  pipeline rule takes (what each staging buffer holds after the body; the invariant carrying the running product).
-/
import proofs.«122110_j65481071399768_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the unscoped buffers' contents when the product is entered
variable (V : (c : Dev nD) → (b : Ref sig .tc) → Buf (Elt F) ((c : Thread nD τ).loc b))

/-! ## Product 1: the blocks, the running product, and the proof data -/

/-- Window `w`'s block at point `t`, read off its matrix as the product finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left matrix's 1024 × 512 block and the right matrix's 512 × 1024 block at point `t`. -/
abbrev lblk1 (c : Dev nD) (t : Fin cfg1.N) : Vec F S1024x512 .f32 := iblk1 V c 0 t
abbrev rblk1 (c : Dev nD) (t : Fin cfg1.N) : Vec F S512x1024 .f32 := iblk1 V c 1 t

/-- THE RUNNING PRODUCT after point `n`: at a point ≡ 0 (mod 8) zero plus the blocks' product, at every other point
    what the point before left plus the blocks' product. -/
def accAt1 (c : Dev nD) : (n : ℕ) → n < cfg1.N → Vec F S1024x1024 .f32
  | 0, hn => k1_pay2 (lblk1 V c ⟨0, hn⟩) (rblk1 V c ⟨0, hn⟩) k1_pay1
  | n + 1, hn =>
    if (n + 1) % 8 = 0 then k1_pay2 (lblk1 V c ⟨n + 1, hn⟩) (rblk1 V c ⟨n + 1, hn⟩) k1_pay1
    else k1_pay2 (lblk1 V c ⟨n + 1, hn⟩) (rblk1 V c ⟨n + 1, hn⟩) (accAt1 c n (Nat.lt_of_succ_lt hn))

theorem accAt1_first (c : Dev nD) (t : Fin cfg1.N) (h : t.val % 8 = 0) :
    accAt1 V c t.val t.isLt = k1_pay2 (lblk1 V c t) (rblk1 V c t) k1_pay1 := by
  obtain ⟨n, hn⟩ := t
  cases n with
  | zero => rfl
  | succ n => exact if_pos h

theorem accAt1_next (c : Dev nD) (t : Fin cfg1.N) (h : ¬t.val % 8 = 0) :
    accAt1 V c t.val t.isLt
      = k1_pay2 (lblk1 V c t) (rblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-- The kernel's other scoped buffers — the staging buffers and running products of the other two products —, each at
    some contents: they ride through this product untouched. -/
def rest1 (c : Dev nD) : sProp 𝕄 :=
  Pipeline.scopedRestBut (Ix := Unit) (Name := ℕ) (U := UR sig nD τ) (Lvl := ℕ) (Val := Elt F) spec1 c [cc1_scratch0]

/-- What the product is entered with beside its windows: the running product's buffer at anything, the other scoped
    buffers, the generator register. -/
theorem PhiA1_eq (c : Dev nD) :
    (Pipeline.ΦA spec1 c : sProp 𝕄)
      = iprop(((∃ d, owns (c : Thread nD τ) acc1 fullShare d) ∗ rest1 c) ∗ ∃ r, prngReg c r) := by
  unfold Pipeline.ΦA rest1
  rw [Pipeline.scopedRest_split_of_list spec1 c [cc1_scratch0] (by decide) (by decide)]
  simp only [acc1, owns_whole, bigSepL]
  try rfl

/-- The invariant between points: before the first the buffer of the running product holds anything; after point `n`
    it holds the running product there. -/
def PhiS1 (c : Dev nD) : (n : ℕ) → n ≤ cfg1.N → sProp 𝕄
  | 0, _ => Pipeline.ΦA spec1 c
  | n + 1, hn => iprop((owns (c : Thread nD τ) acc1 fullShare (accAt1 V c n hn) ∗ rest1 c) ∗ ∃ r, prngReg c r)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) acc1 fullShare (accAt1 V c n hn) ∗ rest1 c) ∗ ∃ r, prngReg c r) := rfl

theorem PhiS1_pos (c : Dev nD) (n : ℕ) (h : n ≤ cfg1.N) (hz : n ≠ 0) :
    PhiS1 V c n h = iprop((owns (c : Thread nD τ) acc1 fullShare (accAt1 V c (n - 1) (by omega)) ∗ rest1 c) ∗ ∃ r, prngReg c r) := by
  cases n with
  | zero => exact absurd rfl hz
  | succ n => rfl

/-- The proof data of product 1: the matrices as the product finds them; after the body each operand's staging
    buffer still at its block, the result's at the hyperbolic tangent of the running product (consulted only at the
    points that write the block back); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t.val t.isLt) := by dsimp only [dat1]

/-- Each operand's current staging buffer holds its block at every point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end

end Cert.Kernel.Hand

end
-- ==== Proof.K.Body1.lean ====
/-
  Product 1: the body obligation of the pipeline rule. At each of the 128 grid points the body, run on the current
  staging buffers, turns the invariant before the point into the invariant after it and leaves each window's buffer
  as the proof data say.
-/
import proofs.«122110_j65481071399768_1_alg».proof.Proof.K.Step1
import proofs.«122110_j65481071399768_1_alg».proof.Proof.K.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Product 1: the body at a generic point -/

/-- What the body is called with at point `t`: the invariant, the core owing nothing, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The operands' buffers are handed back at their blocks. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
/-- Away from a run's last point the result's buffer is handed back as it came; at the last point it holds the
    hyperbolic tangent of the finished product. -/
theorem leaves1_2_idle (c : Dev nD) (t : Fin cfg1.N) (hc1 : ¬cond1_1 (grid1.coords t)) :
    (dat1 V c).leavesExact 2 t = iprop(∃ d, owns (c : Thread nD τ) (ms1_2 t) fullShare ((dat1 V c).before 2 t d)) :=
  Dat.leavesExact_idle (dat1 V c) 2 t (idleAt1_2 t hc1) (noFlush1_2 t hc1)
theorem leaves1_2_live (c : Dev nD) (t : Fin cfg1.N) (hc1 : cond1_1 (grid1.coords t)) :
    (dat1 V c).leavesExact 2 t = owns (c : Thread nD τ) (ms1_2 t) fullShare (k1_pay3 (accAt1 V c t.val t.isLt)) := by
  rw [show (dat1 V c).leavesExact 2 t = owns (c : Thread nD τ) (ms1_2 t) fullShare ((dat1 V c).after 2 t) from by
    unfold Dat.leavesExact; rw [liveAt1_2 t hc1], after1_2]

set_option maxHeartbeats 4000000 in
/-- The body at any point. The point's place in its run of eight selects the case; the operands' buffers hold their
    blocks; the invariant hands over the running product as the point before left it (anything, at a run's first
    point) and takes it back as this point leaves it; away from a run's last point the result's buffer goes back as
    it came, at the last it holds the hyperbolic tangent of the finished product. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 128 := lt_of_lt_of_eq t.isLt (show cfg1.N = 128 from N_1)
  by_cases h0 : t.val % 8 = 0
  · have hc0 : cond1_0 (grid1.coords t) := (hcond1_0 t).mpr h0
    have hc1 : ¬cond1_1 (grid1.coords t) := fun h => by have := (hcond1_1 t).mp h; omega
    rw [leaves1_2_idle V c t hc1, accAt1_first V c t h0]
    by_cases hz : t.val = 0
    · rw [Phi1_castSucc V c t, PhiS1_zero V c _ _ hz, PhiA1_eq]
      iintro ⟨⟨⟨HS, Hr⟩, Hg⟩, Ho, ⟨%d0, H0⟩, ⟨%d1, H1⟩, ⟨%d2, H2⟩⟩
      iapply (step1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [Phi1_castSucc V c t, PhiS1_pos V c _ _ hz]
      iintro ⟨⟨⟨HS, Hr⟩, Hg⟩, Ho, ⟨%d0, H0⟩, ⟨%d1, H1⟩, ⟨%d2, H2⟩⟩
      iapply (step1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun h => h0 (by rw [h])
    rw [accAt1_next V c t h0, Phi1_castSucc V c t, PhiS1_pos V c _ _ hz]
    by_cases h1 : t.val % 8 = 7
    · have hc1 : cond1_1 (grid1.coords t) := (hcond1_1 t).mpr h1
      rw [leaves1_2_live V c t hc1, accAt1_next V c t h0]
      iintro ⟨⟨⟨HS, Hr⟩, Hg⟩, Ho, ⟨%d0, H0⟩, ⟨%d1, H1⟩, ⟨%d2, H2⟩⟩
      iapply (step1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond1_1 (grid1.coords t) := fun h => h1 ((hcond1_1 t).mp h)
      rw [leaves1_2_idle V c t hc1]
      iintro ⟨⟨⟨HS, Hr⟩, Hg⟩, Ho, ⟨%d0, H0⟩, ⟨%d1, H1⟩, ⟨%d2, H2⟩⟩
      iapply (step1_mid c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

/-- Entering the product: what the kernel region starts with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- Leaving it: the running product's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, Hr⟩, Hg⟩
  isplitl [HS Hr]
  · isplitl [HS]; · iexists _; iexact HS
    iexact Hr
  iexact Hg

end

end Cert.Kernel.Hand

end
-- ==== Proof.K.Step2.lean ====
/-
  One grid step of the product number 2, on whole staging buffers: what each buffer holds afterwards, in the three
  cases the grid's last coordinate selects.
-/
import proofs.«122110_j65481071399768_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## One grid step of product 2

The body on whole buffers, case by case. `x0` is the block of the left matrix and `x1` the block of the right one;
`k2_pay2 x0 x1 s` is the running product `s` plus the product of the two blocks, `k2_pay1` the zero block, and
`k2_pay3` the hyperbolic tangent entry by entry. Every load and store is of a whole buffer, so each buffer ends
holding exactly the last value stored into it. -/

set_option maxHeartbeats 1000000 in
/-- At the first block of the contraction: whatever the running product's buffer held, it ends at zero plus the
    blocks' product; the result's block is not touched. -/
theorem step2_first (c : Dev nD) (E : Set ℕ) (i : grid2.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : cond2_0 i) (hc1 : ¬cond2_1 i)
    (x0 : Vec F S1024x512 .f32) (x1 : Vec F S512x1024 .f32) (y : Vec F S1024x1024 .f32) (K : PUnit → sProp 𝕄) :
    iprop(owns (c : Thread nD τ) arg3 fullShare x0 ∗ owns (c : Thread nD τ) arg4 fullShare x1
        ∗ owns (c : Thread nD τ) arg5 fullShare y ∗ (∃ s, owns (c : Thread nD τ) arg6 fullShare s)
        ∗ (iprop(owns (c : Thread nD τ) arg3 fullShare x0 ∗ owns (c : Thread nD τ) arg4 fullShare x1
            ∗ owns (c : Thread nD τ) arg5 fullShare y ∗ owns (c : Thread nD τ) arg6 fullShare (k2_pay2 x0 x1 k2_pay1)) -∗ K ⟨⟩))
      ⊢ wp frame (wpE (defs₀ (F := F)) Variants.none c none) E (cc2__matmul_tanh_kernel i arg3 harg3 arg4 harg4 arg5 harg5 arg6 harg6) K := by
  simp only [cc2__matmul_tanh_kernel_eq_skeleton]; unfold cc2__matmul_tanh_kernel_skel
  unfold owns
  iintro ⟨⟨%f0, %hf0, H0⟩, ⟨%f1, %hf1, H1⟩, ⟨%f2, %hf2, H2⟩, ⟨%s, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readCov_unit_zero (S := S1024x1024) _ hz]

set_option maxHeartbeats 1000000 in
/-- At a middle block: the running product `s` gains the blocks' product; the result's block is not touched. -/
theorem step2_mid (c : Dev nD) (E : Set ℕ) (i : grid2.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond2_0 i) (hc1 : ¬cond2_1 i)
    (x0 : Vec F S1024x512 .f32) (x1 : Vec F S512x1024 .f32) (y : Vec F S1024x1024 .f32) (s : Vec F S1024x1024 .f32) (K : PUnit → sProp 𝕄) :
    iprop(owns (c : Thread nD τ) arg3 fullShare x0 ∗ owns (c : Thread nD τ) arg4 fullShare x1
        ∗ owns (c : Thread nD τ) arg5 fullShare y ∗ owns (c : Thread nD τ) arg6 fullShare s
        ∗ (iprop(owns (c : Thread nD τ) arg3 fullShare x0 ∗ owns (c : Thread nD τ) arg4 fullShare x1
            ∗ owns (c : Thread nD τ) arg5 fullShare y ∗ owns (c : Thread nD τ) arg6 fullShare (k2_pay2 x0 x1 s)) -∗ K ⟨⟩))
      ⊢ wp frame (wpE (defs₀ (F := F)) Variants.none c none) E (cc2__matmul_tanh_kernel i arg3 harg3 arg4 harg4 arg5 harg5 arg6 harg6) K := by
  simp only [cc2__matmul_tanh_kernel_eq_skeleton]; unfold cc2__matmul_tanh_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

set_option maxHeartbeats 1000000 in
/-- At the last block: the running product gains the blocks' product, and its hyperbolic tangent is stored into the
    result's block, whatever that held. -/
theorem step2_last (c : Dev nD) (E : Set ℕ) (i : grid2.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond2_0 i) (hc1 : cond2_1 i)
    (x0 : Vec F S1024x512 .f32) (x1 : Vec F S512x1024 .f32) (s : Vec F S1024x1024 .f32) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare s
        ∗ (iprop(owns (c : Thread nD τ) arg3 fullShare x0 ∗ owns (c : Thread nD τ) arg4 fullShare x1
            ∗ owns (c : Thread nD τ) arg5 fullShare (k2_pay3 (k2_pay2 x0 x1 s)) ∗ owns (c : Thread nD τ) arg6 fullShare (k2_pay2 x0 x1 s)) -∗ K ⟨⟩))
      ⊢ wp frame (wpE (defs₀ (F := F)) Variants.none c none) E (cc2__matmul_tanh_kernel i arg3 harg3 arg4 harg4 arg5 harg5 arg6 harg6) K := by
  simp only [cc2__matmul_tanh_kernel_eq_skeleton]; unfold cc2__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    have hz : (![0, 0] : Fin 2 → Nat) = fun _ => 0 := by funext a; fin_cases a <;> rfl
    rw [View.read_writes_unit_zero _ _ hz, View.readCov_unit_zero (S := S1024x1024) _ hz]
    rw [View.readAt_unit_zero _ _ hz _ _ (harg3.read_unread _), View.readAt_unit_zero _ _ hz _ _ (harg4.read_unread _), View.readAt_unit_zero _ _ hz _ _ (harg6.read_unread _)]
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

end Cert.Kernel.Hand

end
-- ==== Proof.K.Dat2.lean ====
/-
  Product 2 as a pipeline: the blocks its windows carry, the running product point by point, and the proof data the
  pipeline rule takes (what each staging buffer holds after the body; the invariant carrying the running product).
-/
import proofs.«122110_j65481071399768_1_alg».proof.Proof.K.Cases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
-- the unscoped buffers' contents when the product is entered
variable (V : (c : Dev nD) → (b : Ref sig .tc) → Buf (Elt F) ((c : Thread nD τ).loc b))

/-! ## Product 2: the blocks, the running product, and the proof data -/

/-- Window `w`'s block at point `t`, read off its matrix as the product finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left matrix's 1024 × 512 block and the right matrix's 512 × 1024 block at point `t`. -/
abbrev lblk2 (c : Dev nD) (t : Fin cfg2.N) : Vec F S1024x512 .f32 := iblk2 V c 0 t
abbrev rblk2 (c : Dev nD) (t : Fin cfg2.N) : Vec F S512x1024 .f32 := iblk2 V c 1 t

/-- THE RUNNING PRODUCT after point `n`: at a point ≡ 0 (mod 8) zero plus the blocks' product, at every other point
    what the point before left plus the blocks' product. -/
def accAt2 (c : Dev nD) : (n : ℕ) → n < cfg2.N → Vec F S1024x1024 .f32
  | 0, hn => k2_pay2 (lblk2 V c ⟨0, hn⟩) (rblk2 V c ⟨0, hn⟩) k2_pay1
  | n + 1, hn =>
    if (n + 1) % 8 = 0 then k2_pay2 (lblk2 V c ⟨n + 1, hn⟩) (rblk2 V c ⟨n + 1, hn⟩) k2_pay1
    else k2_pay2 (lblk2 V c ⟨n + 1, hn⟩) (rblk2 V c ⟨n + 1, hn⟩) (accAt2 c n (Nat.lt_of_succ_lt hn))

theorem accAt2_first (c : Dev nD) (t : Fin cfg2.N) (h : t.val % 8 = 0) :
    accAt2 V c t.val t.isLt = k2_pay2 (lblk2 V c t) (rblk2 V c t) k2_pay1 := by
  obtain ⟨n, hn⟩ := t
  cases n with
  | zero => rfl
  | succ n => exact if_pos h

theorem accAt2_next (c : Dev nD) (t : Fin cfg2.N) (h : ¬t.val % 8 = 0) :
    accAt2 V c t.val t.isLt
      = k2_pay2 (lblk2 V c t) (rblk2 V c t) (accAt2 V c (t.val - 1) (Nat.lt_of_le_of_lt (Nat.sub_le _ _) t.isLt)) := by
  obtain ⟨n, hn⟩ := t
  cases n with
  | zero => exact absurd (Nat.zero_mod _) h
  | succ n => exact if_neg h

/-- The kernel's other scoped buffers — the staging buffers and running products of the other two products —, each at
    some contents: they ride through this product untouched. -/
def rest2 (c : Dev nD) : sProp 𝕄 :=
  Pipeline.scopedRestBut (Ix := Unit) (Name := ℕ) (U := UR sig nD τ) (Lvl := ℕ) (Val := Elt F) spec2 c [cc2_scratch0]

/-- What the product is entered with beside its windows: the running product's buffer at anything, the other scoped
    buffers, the generator register. -/
theorem PhiA2_eq (c : Dev nD) :
    (Pipeline.ΦA spec2 c : sProp 𝕄)
      = iprop(((∃ d, owns (c : Thread nD τ) acc2 fullShare d) ∗ rest2 c) ∗ ∃ r, prngReg c r) := by
  unfold Pipeline.ΦA rest2
  rw [Pipeline.scopedRest_split_of_list spec2 c [cc2_scratch0] (by decide) (by decide)]
  simp only [acc2, owns_whole, bigSepL]
  try rfl

/-- The invariant between points: before the first the buffer of the running product holds anything; after point `n`
    it holds the running product there. -/
def PhiS2 (c : Dev nD) : (n : ℕ) → n ≤ cfg2.N → sProp 𝕄
  | 0, _ => Pipeline.ΦA spec2 c
  | n + 1, hn => iprop((owns (c : Thread nD τ) acc2 fullShare (accAt2 V c n hn) ∗ rest2 c) ∗ ∃ r, prngReg c r)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) acc2 fullShare (accAt2 V c n hn) ∗ rest2 c) ∗ ∃ r, prngReg c r) := rfl

theorem PhiS2_pos (c : Dev nD) (n : ℕ) (h : n ≤ cfg2.N) (hz : n ≠ 0) :
    PhiS2 V c n h = iprop((owns (c : Thread nD τ) acc2 fullShare (accAt2 V c (n - 1) (by omega)) ∗ rest2 c) ∗ ∃ r, prngReg c r) := by
  cases n with
  | zero => exact absurd rfl hz
  | succ n => rfl

/-- The proof data of product 2: the matrices as the product finds them; after the body each operand's staging
    buffer still at its block, the result's at the hyperbolic tangent of the running product (consulted only at the
    points that write the block back); the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt2 V c t.val t.isLt) := by dsimp only [dat2]

/-- Each operand's current staging buffer holds its block at every point: it is fetched at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

end

end Cert.Kernel.Hand

end
-- ==== Proof.K.Body2.lean ====
/-
  Product 2: the body obligation of the pipeline rule. At each of the 128 grid points the body, run on the current
  staging buffers, turns the invariant before the point into the invariant after it and leaves each window's buffer
  as the proof data say.
-/
import proofs.«122110_j65481071399768_1_alg».proof.Proof.K.Step2
import proofs.«122110_j65481071399768_1_alg».proof.Proof.K.Dat2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Product 2: the body at a generic point -/

/-- What the body is called with at point `t`: the invariant, the core owing nothing, each window's current buffer. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

/-- The operands' buffers are handed back at their blocks. -/
theorem leaves2_0 (c : Dev nD) (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
/-- Away from a run's last point the result's buffer is handed back as it came; at the last point it holds the
    hyperbolic tangent of the finished product. -/
theorem leaves2_2_idle (c : Dev nD) (t : Fin cfg2.N) (hc1 : ¬cond2_1 (grid2.coords t)) :
    (dat2 V c).leavesExact 2 t = iprop(∃ d, owns (c : Thread nD τ) (ms2_2 t) fullShare ((dat2 V c).before 2 t d)) :=
  Dat.leavesExact_idle (dat2 V c) 2 t (idleAt2_2 t hc1) (noFlush2_2 t hc1)
theorem leaves2_2_live (c : Dev nD) (t : Fin cfg2.N) (hc1 : cond2_1 (grid2.coords t)) :
    (dat2 V c).leavesExact 2 t = owns (c : Thread nD τ) (ms2_2 t) fullShare (k2_pay3 (accAt2 V c t.val t.isLt)) := by
  rw [show (dat2 V c).leavesExact 2 t = owns (c : Thread nD τ) (ms2_2 t) fullShare ((dat2 V c).after 2 t) from by
    unfold Dat.leavesExact; rw [liveAt2_2 t hc1], after2_2]

set_option maxHeartbeats 4000000 in
/-- The body at any point. The point's place in its run of eight selects the case; the operands' buffers hold their
    blocks; the invariant hands over the running product as the point before left it (anything, at a run's first
    point) and takes it back as this point leaves it; away from a run's last point the result's buffer goes back as
    it came, at the last it holds the hyperbolic tangent of the finished product. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [leaves2_0, leaves2_1]
  have hN : t.val < 128 := lt_of_lt_of_eq t.isLt (show cfg2.N = 128 from N_2)
  by_cases h0 : t.val % 8 = 0
  · have hc0 : cond2_0 (grid2.coords t) := (hcond2_0 t).mpr h0
    have hc1 : ¬cond2_1 (grid2.coords t) := fun h => by have := (hcond2_1 t).mp h; omega
    rw [leaves2_2_idle V c t hc1, accAt2_first V c t h0]
    by_cases hz : t.val = 0
    · rw [Phi2_castSucc V c t, PhiS2_zero V c _ _ hz, PhiA2_eq]
      iintro ⟨⟨⟨HS, Hr⟩, Hg⟩, Ho, ⟨%d0, H0⟩, ⟨%d1, H1⟩, ⟨%d2, H2⟩⟩
      iapply (step2_first c Set.univ (grid2.coords t) _ _ _ _ _ _ _ _ hc0 hc1 (iblk2 V c 0 t) (iblk2 V c 1 t) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [Phi2_castSucc V c t, PhiS2_pos V c _ _ hz]
      iintro ⟨⟨⟨HS, Hr⟩, Hg⟩, Ho, ⟨%d0, H0⟩, ⟨%d1, H1⟩, ⟨%d2, H2⟩⟩
      iapply (step2_first c Set.univ (grid2.coords t) _ _ _ _ _ _ _ _ hc0 hc1 (iblk2 V c 0 t) (iblk2 V c 1 t) _ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hz : t.val ≠ 0 := fun h => h0 (by rw [h])
    rw [accAt2_next V c t h0, Phi2_castSucc V c t, PhiS2_pos V c _ _ hz]
    by_cases h1 : t.val % 8 = 7
    · have hc1 : cond2_1 (grid2.coords t) := (hcond2_1 t).mpr h1
      rw [leaves2_2_live V c t hc1, accAt2_next V c t h0]
      iintro ⟨⟨⟨HS, Hr⟩, Hg⟩, Ho, ⟨%d0, H0⟩, ⟨%d1, H1⟩, ⟨%d2, H2⟩⟩
      iapply (step2_last c Set.univ (grid2.coords t) _ _ _ _ _ _ _ _ hc0 hc1 (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond2_1 (grid2.coords t) := fun h => h1 ((hcond2_1 t).mp h)
      rw [leaves2_2_idle V c t hc1]
      iintro ⟨⟨⟨HS, Hr⟩, Hg⟩, Ho, ⟨%d0, H0⟩, ⟨%d1, H1⟩, ⟨%d2, H2⟩⟩
      iapply (step2_mid c Set.univ (grid2.coords t) _ _ _ _ _ _ _ _ hc0 hc1 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

/-- Entering the product: what the kernel region starts with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- Leaving it: the running product's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨⟨HS, Hr⟩, Hg⟩
  isplitl [HS Hr]
  · isplitl [HS]; · iexists _; iexact HS
    iexact Hr
  iexact Hg

end

end Cert.Kernel.Hand

end
-- ==== Proof.K.Run.lean ====
/-
  The whole program at any value type: three products in a row, each a pipeline over its own grid, then the head's
  host operations. Between two items every unscoped buffer is held at a named valuation — the launch memory, then each
  product's result written into its matrix, then the head's operations applied —, so the run ends with the result at
  the last valuation and the four arguments as launched.
-/
import proofs.«122110_j65481071399768_1_alg».proof.Proof.K.Body0
import proofs.«122110_j65481071399768_1_alg».proof.Proof.K.Body1
import proofs.«122110_j65481071399768_1_alg».proof.Proof.K.Body2
import proofs.«122110_j65481071399768_1_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch, as a valuation and read at the TensorCore's references. -/
abbrev W0 : Dev nD → Valuation τ sig (Elt F) := fun c b => m (c, b)
abbrev E0 : (c : Dev nD) → (b : Ref sig .tc) → Buf (Elt F) ((c : Thread nD τ).loc b) := fun c b => W0 m c b

/-- After product 0: its three matrices at what the write-backs leave (the operands as entered, the result's blocks
    written in point order), every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After product 1: its three matrices at what the write-backs leave (the operands as entered, the result's blocks
    written in point order), every other buffer as entered. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After product 2: its three matrices at what the write-backs leave (the operands as entered, the result's blocks
    written in point order), every other buffer as entered. -/
def W3 (c : Dev nD) : Valuation τ sig (Elt F) :=
  Pipeline.withArrays spec2 c (W2 m c) fun w => (dat2 (E2 m) c).arrAt w cfg2.N
theorem W3_arr (c : Dev nD) (w : Fin cfg2.W) :
    W3 m c (Proc.devRef .tc (Pipeline.arrRef spec2 w)) = (dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references. -/
abbrev E3 : (c : Dev nD) → (b : Ref sig .tc) → Buf (Elt F) ((c : Thread nD τ).loc b) := fun c b => W3 m c b
theorem hF2 (c : Dev nD) (w : Fin cfg2.W) : (dat2 (E2 m) c).arrAt w cfg2.N = E3 m c (Pipeline.arrRef spec2 w) :=
  (W3_arr m c w).symm
theorem hrest2 (c : Dev nD) : ∀ b, b ∉ Finset.univ.image (Pipeline.arrRef spec2) → E3 m c b = E2 m c b :=
  fun b hb => W3_of_ne m c b fun w e => hb (Finset.mem_image.mpr ⟨w, Finset.mem_univ _, e⟩)

/-- After the head's host operations. -/
abbrev W4 : Dev nD → Valuation τ sig (Elt F) := fun c => StableHlo.after hostOps3 (W3 m c)

/-! ## The arguments end as launched: each is an operand of one product and is written by nothing -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps3 _ hostOps3_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 1).trans (((dat0 (E0 m) c).arrAt_in 1 rfl _).trans (A_eq0 (E0 m) c 1))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps3 _ hostOps3_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 0).trans (((dat0 (E0 m) c).arrAt_in 0 rfl _).trans (A_eq0 (E0 m) c 0))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps3 _ hostOps3_writes (by decide)
    _ = W2 m c (Proc.devRef .tc main_arg2) := W3_of_ne m c main_arg2 (by decide)
    _ = W1 m c (Proc.devRef .tc main_arg2) := (W2_arr m c 0).trans (((dat1 (E1 m) c).arrAt_in 0 rfl _).trans (A_eq1 (E1 m) c 0))
    _ = W0 m c (Proc.devRef .tc main_arg2) := W1_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps3 _ hostOps3_writes (by decide)
    _ = W2 m c (Proc.devRef .tc main_arg3) := (W3_arr m c 0).trans (((dat2 (E2 m) c).arrAt_in 0 rfl _).trans (A_eq2 (E2 m) c 0))
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

/-! ## The proof data family and the thread state -/

abbrev adm : (p : Fin 3) → (pcfgs (F := F) p).Adm := fun p => (cfgs p).toPCfg_adm
/-- Every product's proof data, each at the contents it is entered with. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-- The head's operations as a segment. -/
abbrev hseg : Pipeline.HostSeg (Name := ℕ) (U := UR sig nD τ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The products as segments -/

-- the library's lemmas are stated over a family of pipelines read at an index; matching them against this product's
-- own configuration needs definitions unfolded inside the types of unknowns
set_option backward.isDefEq.respectTransparency.types false in
/-- Product 0 as a segment of the program: entered with every unscoped buffer at `W0`, left with them at `W1`.
    Its three matrices are split out of the unscoped buffers and put back at what the write-backs leave; the generator
    register and the kernel's scoped buffers pass into the invariant and out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (E0 m) c)
    unfold Pipeline.ΦA
    iintro ⟨Hp, -, Hr⟩
    isplitl [Hr]; · iexact Hr
    iexact Hp
  hout c := by
    refine (hout0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a family of pipelines read at an index; matching them against this product's
-- own configuration needs definitions unfolded inside the types of unknowns
set_option backward.isDefEq.respectTransparency.types false in
/-- Product 1 as a segment of the program: entered with every unscoped buffer at `W1`, left with them at `W2`.
    Its three matrices are split out of the unscoped buffers and put back at what the write-backs leave; the generator
    register and the kernel's scoped buffers pass into the invariant and out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E1 m) c)
    unfold Pipeline.ΦA
    iintro ⟨Hp, -, Hr⟩
    isplitl [Hr]; · iexact Hr
    iexact Hp
  hout c := by
    refine (hout1 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a family of pipelines read at an index; matching them against this product's
-- own configuration needs definitions unfolded inside the types of unknowns
set_option backward.isDefEq.respectTransparency.types false in
/-- Product 2 as a segment of the program: entered with every unscoped buffer at `W2`, left with them at `W3`.
    Its three matrices are split out of the unscoped buffers and put back at what the write-backs leave; the generator
    register and the kernel's scoped buffers pass into the invariant and out; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hin2 (E2 m) c)
    unfold Pipeline.ΦA
    iintro ⟨Hp, -, Hr⟩
    isplitl [Hr]; · iexact Hr
    iexact Hp
  hout c := by
    refine (hout2 (E2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segs : List (Pipeline.Seg (pcfgs (F := F)) adm (pdats m) () defs₀ 𝒱₀ L lv) :=
  [ .region (reg0 m), .region (reg1 m), .region (reg2 m), .host (hseg m) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting; the result then holds what the head's operations make of the third product's matrix (`W4`), and the four
    arguments are as launched. -/
theorem run_main : θ_run defs (onTc (τ := τ) (main (F := F))) ⟨m, fun _ => 0, ρ⟩ (fun r => ∀ c : Dev nD,
      r.2.mem ((c.tc : Thread nD τ).loc main_v19) = W4 m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W4 m c))
    (hch := ⟨fun _ => .rfl, fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v19 (by decide)),
        (h c _ (mem_uc main_arg0 (by decide))).trans (W4_main_arg0 m c),
        (h c _ (mem_uc main_arg1 (by decide))).trans (W4_main_arg1 m c),
        (h c _ (mem_uc main_arg2 (by decide))).trans (W4_main_arg2 m c),
        (h c _ (mem_uc main_arg3 (by decide))).trans (W4_main_arg3 m c)⟩)

end Cert.Kernel.Hand

end
-- ==== Proof.KI.Cases.lean ====
/-
  The grids of the three products. Each product `tanh (W · h)` of 4096 × 4096 matrices runs over a grid of
  4 × 4 × 8 points: a 1024 × 1024 block of the result for each of the first two coordinates, and for the third the
  eight 512-wide blocks of the contracted axis, innermost. A running product lives in a buffer of the kernel's own
  between the eight points of one result block: reset at the first, added to at every point, and passed through the
  hyperbolic tangent into the result's block at the last. Decided here, once per product, over the 128 points: where
  the two branches are taken, and where the result's window is idle.
-/
import proofs.«122110_j65481071399768_1_alg».proof.Proof.Gen.KernelIdeal.Launch
import proofs.«122110_j65481071399768_1_alg».proof.Proof.Gen.KernelIdeal.Skeleton
import proofs.«122110_j65481071399768_1_alg».proof.Proof.Gen.KernelIdeal.Points
import proofs.«122110_j65481071399768_1_alg».proof.Proof.LibWhole
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 0: which points reset the running product, and which write the result -/

/-- The first branch of the body of region 0: taken where the contraction's block index, the grid's last
    coordinate, is 0 — the running product is reset to zero there. -/
abbrev cond0_0 (i : grid0.Coords) : Prop := (Scalar.cmpi .ne (Scalar.extui (Scalar.cmpi .eq (BitVec.ofNat 32 (i 2).val) 0#32)) 0#32) = 1#1
/-- The grid runs the contraction's 8 blocks innermost: the reset is at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch: taken at the contraction's last block, where the hyperbolic tangent of the finished
    product is stored into the result's block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The two operand windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- Away from the contraction's last block the result's window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last block it is live. -/
theorem liveAt0_2 : ∀ t : Fin cfg0.N, cond0_1 (grid0.coords t) → cfg0.idle 2 (grid0.coords t) = false := by decide +kernel

/-- The staging buffers the body is called with at point `t`, and the buffer the running product lives in. -/
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev acc0 : Memref sig .tc .vmem S1024x1024 .f32 := Memref.whole cc0_scratch0

/-! ## Region 1: which points reset the running product, and which write the result -/

/-- The first branch of the body of region 1: taken where the contraction's block index, the grid's last
    coordinate, is 0 — the running product is reset to zero there. -/
abbrev cond1_0 (i : grid1.Coords) : Prop := (Scalar.cmpi .ne (Scalar.extui (Scalar.cmpi .eq (BitVec.ofNat 32 (i 2).val) 0#32)) 0#32) = 1#1
/-- The grid runs the contraction's 8 blocks innermost: the reset is at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch: taken at the contraction's last block, where the hyperbolic tangent of the finished
    product is stored into the result's block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The two operand windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the contraction's last block the result's window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At the last block it is live. -/
theorem liveAt1_2 : ∀ t : Fin cfg1.N, cond1_1 (grid1.coords t) → cfg1.idle 2 (grid1.coords t) = false := by decide +kernel

/-- The staging buffers the body is called with at point `t`, and the buffer the running product lives in. -/
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev acc1 : Memref sig .tc .vmem S1024x1024 .f32 := Memref.whole cc1_scratch0

/-! ## Region 2: which points reset the running product, and which write the result -/

/-- The first branch of the body of region 2: taken where the contraction's block index, the grid's last
    coordinate, is 0 — the running product is reset to zero there. -/
abbrev cond2_0 (i : grid2.Coords) : Prop := (Scalar.cmpi .ne (Scalar.extui (Scalar.cmpi .eq (BitVec.ofNat 32 (i 2).val) 0#32)) 0#32) = 1#1
/-- The grid runs the contraction's 8 blocks innermost: the reset is at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The second branch: taken at the contraction's last block, where the hyperbolic tangent of the finished
    product is stored into the result's block. -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

/-- The two operand windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Away from the contraction's last block the result's window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- At the last block it is live. -/
theorem liveAt2_2 : ∀ t : Fin cfg2.N, cond2_1 (grid2.coords t) → cfg2.idle 2 (grid2.coords t) = false := by decide +kernel

/-- The staging buffers the body is called with at point `t`, and the buffer the running product lives in. -/
abbrev ms2_0 (t : Fin cfg2.N) : Memref sig .tc .vmem S1024x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1024 .f32 := win2_2.stage (cfg2.slots t 2)
abbrev hs2_2 (t : Fin cfg2.N) : (ms2_2 t).IsWhole := hstage2_2 ((cfg2.slots t 2).cast nbuf2_2)
abbrev acc2 : Memref sig .tc .vmem S1024x1024 .f32 := Memref.whole cc2_scratch0

end Cert.KernelIdeal.Hand

end
-- ==== Proof.KI.Step0.lean ====
/-
  One grid step of the product number 0, on whole staging buffers: what each buffer holds afterwards, in the three
  cases the grid's last coordinate selects.
-/
import proofs.«122110_j65481071399768_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One grid step of product 0

The body on whole buffers, case by case. `x0` is the block of the left matrix and `x1` the block of the right one;
`k0_pay2 x0 x1 s` is the running product `s` plus the product of the two blocks, `k0_pay1` the zero block, and
`k0_pay3` the hyperbolic tangent entry by entry. Every load and store is of a whole buffer, so each buffer ends
holding exactly the last value stored into it. -/

set_option maxHeartbeats 1000000 in
/-- At the first block of the contraction: whatever the running product's buffer held, it ends at zero plus the
    blocks' product; the result's block is not touched. -/
theorem step0_first (c : Dev nD) (E : Set ℕ) (i : grid0.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : cond0_0 i) (hc1 : ¬cond0_1 i)
    (x0 : Vec F S1024x512 .f32) (x1 : Vec F S512x1024 .f32) (y : Vec F S1024x1024 .f32) (K : PUnit → sProp 𝕄) :
    iprop(owns (c : Thread nD τ) arg3 fullShare x0 ∗ owns (c : Thread nD τ) arg4 fullShare x1
        ∗ owns (c : Thread nD τ) arg5 fullShare y ∗ (∃ s, owns (c : Thread nD τ) arg6 fullShare s)
        ∗ (iprop(owns (c : Thread nD τ) arg3 fullShare x0 ∗ owns (c : Thread nD τ) arg4 fullShare x1
            ∗ owns (c : Thread nD τ) arg5 fullShare y ∗ owns (c : Thread nD τ) arg6 fullShare (k0_pay2 x0 x1 k0_pay1)) -∗ K ⟨⟩))
      ⊢ wp frame (wpE (defs₀ (F := F)) Variants.none c none) E (cc0__matmul_tanh_kernel i arg3 harg3 arg4 harg4 arg5 harg5 arg6 harg6) K := by
  simp only [cc0__matmul_tanh_kernel_eq_skeleton]; unfold cc0__matmul_tanh_kernel_skel
  unfold owns
  iintro ⟨⟨%f0, %hf0, H0⟩, ⟨%f1, %hf1, H1⟩, ⟨%f2, %hf2, H2⟩, ⟨%s, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readCov_unit_zero (S := S1024x1024) _ hz]

set_option maxHeartbeats 1000000 in
/-- At a middle block: the running product `s` gains the blocks' product; the result's block is not touched. -/
theorem step0_mid (c : Dev nD) (E : Set ℕ) (i : grid0.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond0_0 i) (hc1 : ¬cond0_1 i)
    (x0 : Vec F S1024x512 .f32) (x1 : Vec F S512x1024 .f32) (y : Vec F S1024x1024 .f32) (s : Vec F S1024x1024 .f32) (K : PUnit → sProp 𝕄) :
    iprop(owns (c : Thread nD τ) arg3 fullShare x0 ∗ owns (c : Thread nD τ) arg4 fullShare x1
        ∗ owns (c : Thread nD τ) arg5 fullShare y ∗ owns (c : Thread nD τ) arg6 fullShare s
        ∗ (iprop(owns (c : Thread nD τ) arg3 fullShare x0 ∗ owns (c : Thread nD τ) arg4 fullShare x1
            ∗ owns (c : Thread nD τ) arg5 fullShare y ∗ owns (c : Thread nD τ) arg6 fullShare (k0_pay2 x0 x1 s)) -∗ K ⟨⟩))
      ⊢ wp frame (wpE (defs₀ (F := F)) Variants.none c none) E (cc0__matmul_tanh_kernel i arg3 harg3 arg4 harg4 arg5 harg5 arg6 harg6) K := by
  simp only [cc0__matmul_tanh_kernel_eq_skeleton]; unfold cc0__matmul_tanh_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

set_option maxHeartbeats 1000000 in
/-- At the last block: the running product gains the blocks' product, and its hyperbolic tangent is stored into the
    result's block, whatever that held. -/
theorem step0_last (c : Dev nD) (E : Set ℕ) (i : grid0.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond0_0 i) (hc1 : cond0_1 i)
    (x0 : Vec F S1024x512 .f32) (x1 : Vec F S512x1024 .f32) (s : Vec F S1024x1024 .f32) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare s
        ∗ (iprop(owns (c : Thread nD τ) arg3 fullShare x0 ∗ owns (c : Thread nD τ) arg4 fullShare x1
            ∗ owns (c : Thread nD τ) arg5 fullShare (k0_pay3 (k0_pay2 x0 x1 s)) ∗ owns (c : Thread nD τ) arg6 fullShare (k0_pay2 x0 x1 s)) -∗ K ⟨⟩))
      ⊢ wp frame (wpE (defs₀ (F := F)) Variants.none c none) E (cc0__matmul_tanh_kernel i arg3 harg3 arg4 harg4 arg5 harg5 arg6 harg6) K := by
  simp only [cc0__matmul_tanh_kernel_eq_skeleton]; unfold cc0__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    have hz : (![0, 0] : Fin 2 → Nat) = fun _ => 0 := by funext a; fin_cases a <;> rfl
    rw [View.read_writes_unit_zero _ _ hz, View.readCov_unit_zero (S := S1024x1024) _ hz]
    rw [View.readAt_unit_zero _ _ hz _ _ (harg3.read_unread _), View.readAt_unit_zero _ _ hz _ _ (harg4.read_unread _), View.readAt_unit_zero _ _ hz _ _ (harg6.read_unread _)]
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

end Cert.KernelIdeal.Hand

end
-- ==== Proof.KI.Dat0.lean ====
/-
  Product 0 as a pipeline: the blocks its windows carry, the running product point by point, and the proof data the
  pipeline rule takes (what each staging buffer holds after the body; the invariant carrying the running product).
-/
import proofs.«122110_j65481071399768_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the unscoped buffers' contents when the product is entered
variable (V : (c : Dev nD) → (b : Ref sig .tc) → Buf (Elt F) ((c : Thread nD τ).loc b))

/-! ## Product 0: the blocks, the running product, and the proof data -/

/-- Window `w`'s block at point `t`, read off its matrix as the product finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left matrix's 1024 × 512 block and the right matrix's 512 × 1024 block at point `t`. -/
abbrev lblk0 (c : Dev nD) (t : Fin cfg0.N) : Vec F S1024x512 .f32 := iblk0 V c 0 t
abbrev rblk0 (c : Dev nD) (t : Fin cfg0.N) : Vec F S512x1024 .f32 := iblk0 V c 1 t

/-- THE RUNNING PRODUCT after point `n`: at a point ≡ 0 (mod 8) zero plus the blocks' product, at every other point
    what the point before left plus the blocks' product. -/
def accAt0 (c : Dev nD) : (n : ℕ) → n < cfg0.N → Vec F S1024x1024 .f32
  | 0, hn => k0_pay2 (lblk0 V c ⟨0, hn⟩) (rblk0 V c ⟨0, hn⟩) k0_pay1
  | n + 1, hn =>
    if (n + 1) % 8 = 0 then k0_pay2 (lblk0 V c ⟨n + 1, hn⟩) (rblk0 V c ⟨n + 1, hn⟩) k0_pay1
    else k0_pay2 (lblk0 V c ⟨n + 1, hn⟩) (rblk0 V c ⟨n + 1, hn⟩) (accAt0 c n (Nat.lt_of_succ_lt hn))

theorem accAt0_first (c : Dev nD) (t : Fin cfg0.N) (h : t.val % 8 = 0) :
    accAt0 V c t.val t.isLt = k0_pay2 (lblk0 V c t) (rblk0 V c t) k0_pay1 := by
  obtain ⟨n, hn⟩ := t
  cases n with
  | zero => rfl
  | succ n => exact if_pos h

theorem accAt0_next (c : Dev nD) (t : Fin cfg0.N) (h : ¬t.val % 8 = 0) :
    accAt0 V c t.val t.isLt
      = k0_pay2 (lblk0 V c t) (rblk0 V c t) (accAt0 V c (t.val - 1) (Nat.lt_of_le_of_lt (Nat.sub_le _ _) t.isLt)) := by
  obtain ⟨n, hn⟩ := t
  cases n with
  | zero => exact absurd (Nat.zero_mod _) h
  | succ n => exact if_neg h

/-- The kernel's other scoped buffers — the staging buffers and running products of the other two products —, each at
    some contents: they ride through this product untouched. -/
def rest0 (c : Dev nD) : sProp 𝕄 :=
  Pipeline.scopedRestBut (Ix := Unit) (Name := ℕ) (U := UR sig nD τ) (Lvl := ℕ) (Val := Elt F) spec0 c [cc0_scratch0]

/-- What the product is entered with beside its windows: the running product's buffer at anything, the other scoped
    buffers, the generator register. -/
theorem PhiA0_eq (c : Dev nD) :
    (Pipeline.ΦA spec0 c : sProp 𝕄)
      = iprop(((∃ d, owns (c : Thread nD τ) acc0 fullShare d) ∗ rest0 c) ∗ ∃ r, prngReg c r) := by
  unfold Pipeline.ΦA rest0
  rw [Pipeline.scopedRest_split_of_list spec0 c [cc0_scratch0] (by decide) (by decide)]
  simp only [acc0, owns_whole, bigSepL]
  try rfl

/-- The invariant between points: before the first the buffer of the running product holds anything; after point `n`
    it holds the running product there. -/
def PhiS0 (c : Dev nD) : (n : ℕ) → n ≤ cfg0.N → sProp 𝕄
  | 0, _ => Pipeline.ΦA spec0 c
  | n + 1, hn => iprop((owns (c : Thread nD τ) acc0 fullShare (accAt0 V c n hn) ∗ rest0 c) ∗ ∃ r, prngReg c r)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) acc0 fullShare (accAt0 V c n hn) ∗ rest0 c) ∗ ∃ r, prngReg c r) := rfl

theorem PhiS0_pos (c : Dev nD) (n : ℕ) (h : n ≤ cfg0.N) (hz : n ≠ 0) :
    PhiS0 V c n h = iprop((owns (c : Thread nD τ) acc0 fullShare (accAt0 V c (n - 1) (by omega)) ∗ rest0 c) ∗ ∃ r, prngReg c r) := by
  cases n with
  | zero => exact absurd rfl hz
  | succ n => rfl

/-- The proof data of product 0: the matrices as the product finds them; after the body each operand's staging
    buffer still at its block, the result's at the hyperbolic tangent of the running product (consulted only at the
    points that write the block back); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (accAt0 V c t.val t.isLt) := by dsimp only [dat0]

/-- Each operand's current staging buffer holds its block at every point: it is fetched at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end

end Cert.KernelIdeal.Hand

end
-- ==== Proof.KI.Body0.lean ====
/-
  Product 0: the body obligation of the pipeline rule. At each of the 128 grid points the body, run on the current
  staging buffers, turns the invariant before the point into the invariant after it and leaves each window's buffer
  as the proof data say.
-/
import proofs.«122110_j65481071399768_1_alg».proof.Proof.KI.Step0
import proofs.«122110_j65481071399768_1_alg».proof.Proof.KI.Dat0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Product 0: the body at a generic point -/

/-- What the body is called with at point `t`: the invariant, the core owing nothing, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- What it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- The operands' buffers are handed back at their blocks. -/
theorem leaves0_0 (c : Dev nD) (t : Fin cfg0.N) :
    (dat0 V c).leavesExact 0 t = owns (c : Thread nD τ) (ms0_0 t) fullShare (iblk0 V c 0 t) := by
  rw [show (dat0 V c).leavesExact 0 t = owns (c : Thread nD τ) (ms0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (ms0_1 t) fullShare (iblk0 V c 1 t) := by
  rw [show (dat0 V c).leavesExact 1 t = owns (c : Thread nD τ) (ms0_1 t) fullShare ((dat0 V c).after 1 t) from by
    unfold Dat.leavesExact; rw [liveAt0_1 t], after0_1]
/-- Away from a run's last point the result's buffer is handed back as it came; at the last point it holds the
    hyperbolic tangent of the finished product. -/
theorem leaves0_2_idle (c : Dev nD) (t : Fin cfg0.N) (hc1 : ¬cond0_1 (grid0.coords t)) :
    (dat0 V c).leavesExact 2 t = iprop(∃ d, owns (c : Thread nD τ) (ms0_2 t) fullShare ((dat0 V c).before 2 t d)) :=
  Dat.leavesExact_idle (dat0 V c) 2 t (idleAt0_2 t hc1) (noFlush0_2 t hc1)
theorem leaves0_2_live (c : Dev nD) (t : Fin cfg0.N) (hc1 : cond0_1 (grid0.coords t)) :
    (dat0 V c).leavesExact 2 t = owns (c : Thread nD τ) (ms0_2 t) fullShare (k0_pay3 (accAt0 V c t.val t.isLt)) := by
  rw [show (dat0 V c).leavesExact 2 t = owns (c : Thread nD τ) (ms0_2 t) fullShare ((dat0 V c).after 2 t) from by
    unfold Dat.leavesExact; rw [liveAt0_2 t hc1], after0_2]

set_option maxHeartbeats 4000000 in
/-- The body at any point. The point's place in its run of eight selects the case; the operands' buffers hold their
    blocks; the invariant hands over the running product as the point before left it (anything, at a run's first
    point) and takes it back as this point leaves it; away from a run's last point the result's buffer goes back as
    it came, at the last it holds the hyperbolic tangent of the finished product. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1]
  have hN : t.val < 128 := lt_of_lt_of_eq t.isLt (show cfg0.N = 128 from N_0)
  by_cases h0 : t.val % 8 = 0
  · have hc0 : cond0_0 (grid0.coords t) := (hcond0_0 t).mpr h0
    have hc1 : ¬cond0_1 (grid0.coords t) := fun h => by have := (hcond0_1 t).mp h; omega
    rw [leaves0_2_idle V c t hc1, accAt0_first V c t h0]
    by_cases hz : t.val = 0
    · rw [Phi0_castSucc V c t, PhiS0_zero V c _ _ hz, PhiA0_eq]
      iintro ⟨⟨⟨HS, Hr⟩, Hg⟩, Ho, ⟨%d0, H0⟩, ⟨%d1, H1⟩, ⟨%d2, H2⟩⟩
      iapply (step0_first c Set.univ (grid0.coords t) _ _ _ _ _ _ _ _ hc0 hc1 (iblk0 V c 0 t) (iblk0 V c 1 t) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [Phi0_castSucc V c t, PhiS0_pos V c _ _ hz]
      iintro ⟨⟨⟨HS, Hr⟩, Hg⟩, Ho, ⟨%d0, H0⟩, ⟨%d1, H1⟩, ⟨%d2, H2⟩⟩
      iapply (step0_first c Set.univ (grid0.coords t) _ _ _ _ _ _ _ _ hc0 hc1 (iblk0 V c 0 t) (iblk0 V c 1 t) _ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hc0 : ¬cond0_0 (grid0.coords t) := fun h => h0 ((hcond0_0 t).mp h)
    have hz : t.val ≠ 0 := fun h => h0 (by rw [h])
    rw [accAt0_next V c t h0, Phi0_castSucc V c t, PhiS0_pos V c _ _ hz]
    by_cases h1 : t.val % 8 = 7
    · have hc1 : cond0_1 (grid0.coords t) := (hcond0_1 t).mpr h1
      rw [leaves0_2_live V c t hc1, accAt0_next V c t h0]
      iintro ⟨⟨⟨HS, Hr⟩, Hg⟩, Ho, ⟨%d0, H0⟩, ⟨%d1, H1⟩, ⟨%d2, H2⟩⟩
      iapply (step0_last c Set.univ (grid0.coords t) _ _ _ _ _ _ _ _ hc0 hc1 (iblk0 V c 0 t) (iblk0 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond0_1 (grid0.coords t) := fun h => h1 ((hcond0_1 t).mp h)
      rw [leaves0_2_idle V c t hc1]
      iintro ⟨⟨⟨HS, Hr⟩, Hg⟩, Ho, ⟨%d0, H0⟩, ⟨%d1, H1⟩, ⟨%d2, H2⟩⟩
      iapply (step0_mid c Set.univ (grid0.coords t) _ _ _ _ _ _ _ _ hc0 hc1 (iblk0 V c 0 t) (iblk0 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-- Entering the product: what the kernel region starts with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- Leaving it: the running product's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, Hr⟩, Hg⟩
  isplitl [HS Hr]
  · isplitl [HS]; · iexists _; iexact HS
    iexact Hr
  iexact Hg

end

end Cert.KernelIdeal.Hand

end
-- ==== Proof.KI.Step1.lean ====
/-
  One grid step of the product number 1, on whole staging buffers: what each buffer holds afterwards, in the three
  cases the grid's last coordinate selects.
-/
import proofs.«122110_j65481071399768_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One grid step of product 1

The body on whole buffers, case by case. `x0` is the block of the left matrix and `x1` the block of the right one;
`k1_pay2 x0 x1 s` is the running product `s` plus the product of the two blocks, `k1_pay1` the zero block, and
`k1_pay3` the hyperbolic tangent entry by entry. Every load and store is of a whole buffer, so each buffer ends
holding exactly the last value stored into it. -/

set_option maxHeartbeats 1000000 in
/-- At the first block of the contraction: whatever the running product's buffer held, it ends at zero plus the
    blocks' product; the result's block is not touched. -/
theorem step1_first (c : Dev nD) (E : Set ℕ) (i : grid1.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : cond1_0 i) (hc1 : ¬cond1_1 i)
    (x0 : Vec F S1024x512 .f32) (x1 : Vec F S512x1024 .f32) (y : Vec F S1024x1024 .f32) (K : PUnit → sProp 𝕄) :
    iprop(owns (c : Thread nD τ) arg3 fullShare x0 ∗ owns (c : Thread nD τ) arg4 fullShare x1
        ∗ owns (c : Thread nD τ) arg5 fullShare y ∗ (∃ s, owns (c : Thread nD τ) arg6 fullShare s)
        ∗ (iprop(owns (c : Thread nD τ) arg3 fullShare x0 ∗ owns (c : Thread nD τ) arg4 fullShare x1
            ∗ owns (c : Thread nD τ) arg5 fullShare y ∗ owns (c : Thread nD τ) arg6 fullShare (k1_pay2 x0 x1 k1_pay1)) -∗ K ⟨⟩))
      ⊢ wp frame (wpE (defs₀ (F := F)) Variants.none c none) E (cc1__matmul_tanh_kernel i arg3 harg3 arg4 harg4 arg5 harg5 arg6 harg6) K := by
  simp only [cc1__matmul_tanh_kernel_eq_skeleton]; unfold cc1__matmul_tanh_kernel_skel
  unfold owns
  iintro ⟨⟨%f0, %hf0, H0⟩, ⟨%f1, %hf1, H1⟩, ⟨%f2, %hf2, H2⟩, ⟨%s, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readCov_unit_zero (S := S1024x1024) _ hz]

set_option maxHeartbeats 1000000 in
/-- At a middle block: the running product `s` gains the blocks' product; the result's block is not touched. -/
theorem step1_mid (c : Dev nD) (E : Set ℕ) (i : grid1.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond1_0 i) (hc1 : ¬cond1_1 i)
    (x0 : Vec F S1024x512 .f32) (x1 : Vec F S512x1024 .f32) (y : Vec F S1024x1024 .f32) (s : Vec F S1024x1024 .f32) (K : PUnit → sProp 𝕄) :
    iprop(owns (c : Thread nD τ) arg3 fullShare x0 ∗ owns (c : Thread nD τ) arg4 fullShare x1
        ∗ owns (c : Thread nD τ) arg5 fullShare y ∗ owns (c : Thread nD τ) arg6 fullShare s
        ∗ (iprop(owns (c : Thread nD τ) arg3 fullShare x0 ∗ owns (c : Thread nD τ) arg4 fullShare x1
            ∗ owns (c : Thread nD τ) arg5 fullShare y ∗ owns (c : Thread nD τ) arg6 fullShare (k1_pay2 x0 x1 s)) -∗ K ⟨⟩))
      ⊢ wp frame (wpE (defs₀ (F := F)) Variants.none c none) E (cc1__matmul_tanh_kernel i arg3 harg3 arg4 harg4 arg5 harg5 arg6 harg6) K := by
  simp only [cc1__matmul_tanh_kernel_eq_skeleton]; unfold cc1__matmul_tanh_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

set_option maxHeartbeats 1000000 in
/-- At the last block: the running product gains the blocks' product, and its hyperbolic tangent is stored into the
    result's block, whatever that held. -/
theorem step1_last (c : Dev nD) (E : Set ℕ) (i : grid1.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond1_0 i) (hc1 : cond1_1 i)
    (x0 : Vec F S1024x512 .f32) (x1 : Vec F S512x1024 .f32) (s : Vec F S1024x1024 .f32) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare s
        ∗ (iprop(owns (c : Thread nD τ) arg3 fullShare x0 ∗ owns (c : Thread nD τ) arg4 fullShare x1
            ∗ owns (c : Thread nD τ) arg5 fullShare (k1_pay3 (k1_pay2 x0 x1 s)) ∗ owns (c : Thread nD τ) arg6 fullShare (k1_pay2 x0 x1 s)) -∗ K ⟨⟩))
      ⊢ wp frame (wpE (defs₀ (F := F)) Variants.none c none) E (cc1__matmul_tanh_kernel i arg3 harg3 arg4 harg4 arg5 harg5 arg6 harg6) K := by
  simp only [cc1__matmul_tanh_kernel_eq_skeleton]; unfold cc1__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    have hz : (![0, 0] : Fin 2 → Nat) = fun _ => 0 := by funext a; fin_cases a <;> rfl
    rw [View.read_writes_unit_zero _ _ hz, View.readCov_unit_zero (S := S1024x1024) _ hz]
    rw [View.readAt_unit_zero _ _ hz _ _ (harg3.read_unread _), View.readAt_unit_zero _ _ hz _ _ (harg4.read_unread _), View.readAt_unit_zero _ _ hz _ _ (harg6.read_unread _)]
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

end Cert.KernelIdeal.Hand

end
-- ==== Proof.KI.Dat1.lean ====
/-
  Product 1 as a pipeline: the blocks its windows carry, the running product point by point, and the proof data the
  pipeline rule takes (what each staging buffer holds after the body; the invariant carrying the running product).
-/
import proofs.«122110_j65481071399768_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the unscoped buffers' contents when the product is entered
variable (V : (c : Dev nD) → (b : Ref sig .tc) → Buf (Elt F) ((c : Thread nD τ).loc b))

/-! ## Product 1: the blocks, the running product, and the proof data -/

/-- Window `w`'s block at point `t`, read off its matrix as the product finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left matrix's 1024 × 512 block and the right matrix's 512 × 1024 block at point `t`. -/
abbrev lblk1 (c : Dev nD) (t : Fin cfg1.N) : Vec F S1024x512 .f32 := iblk1 V c 0 t
abbrev rblk1 (c : Dev nD) (t : Fin cfg1.N) : Vec F S512x1024 .f32 := iblk1 V c 1 t

/-- THE RUNNING PRODUCT after point `n`: at a point ≡ 0 (mod 8) zero plus the blocks' product, at every other point
    what the point before left plus the blocks' product. -/
def accAt1 (c : Dev nD) : (n : ℕ) → n < cfg1.N → Vec F S1024x1024 .f32
  | 0, hn => k1_pay2 (lblk1 V c ⟨0, hn⟩) (rblk1 V c ⟨0, hn⟩) k1_pay1
  | n + 1, hn =>
    if (n + 1) % 8 = 0 then k1_pay2 (lblk1 V c ⟨n + 1, hn⟩) (rblk1 V c ⟨n + 1, hn⟩) k1_pay1
    else k1_pay2 (lblk1 V c ⟨n + 1, hn⟩) (rblk1 V c ⟨n + 1, hn⟩) (accAt1 c n (Nat.lt_of_succ_lt hn))

theorem accAt1_first (c : Dev nD) (t : Fin cfg1.N) (h : t.val % 8 = 0) :
    accAt1 V c t.val t.isLt = k1_pay2 (lblk1 V c t) (rblk1 V c t) k1_pay1 := by
  obtain ⟨n, hn⟩ := t
  cases n with
  | zero => rfl
  | succ n => exact if_pos h

theorem accAt1_next (c : Dev nD) (t : Fin cfg1.N) (h : ¬t.val % 8 = 0) :
    accAt1 V c t.val t.isLt
      = k1_pay2 (lblk1 V c t) (rblk1 V c t) (accAt1 V c (t.val - 1) (Nat.lt_of_le_of_lt (Nat.sub_le _ _) t.isLt)) := by
  obtain ⟨n, hn⟩ := t
  cases n with
  | zero => exact absurd (Nat.zero_mod _) h
  | succ n => exact if_neg h

/-- The kernel's other scoped buffers — the staging buffers and running products of the other two products —, each at
    some contents: they ride through this product untouched. -/
def rest1 (c : Dev nD) : sProp 𝕄 :=
  Pipeline.scopedRestBut (Ix := Unit) (Name := ℕ) (U := UR sig nD τ) (Lvl := ℕ) (Val := Elt F) spec1 c [cc1_scratch0]

/-- What the product is entered with beside its windows: the running product's buffer at anything, the other scoped
    buffers, the generator register. -/
theorem PhiA1_eq (c : Dev nD) :
    (Pipeline.ΦA spec1 c : sProp 𝕄)
      = iprop(((∃ d, owns (c : Thread nD τ) acc1 fullShare d) ∗ rest1 c) ∗ ∃ r, prngReg c r) := by
  unfold Pipeline.ΦA rest1
  rw [Pipeline.scopedRest_split_of_list spec1 c [cc1_scratch0] (by decide) (by decide)]
  simp only [acc1, owns_whole, bigSepL]
  try rfl

/-- The invariant between points: before the first the buffer of the running product holds anything; after point `n`
    it holds the running product there. -/
def PhiS1 (c : Dev nD) : (n : ℕ) → n ≤ cfg1.N → sProp 𝕄
  | 0, _ => Pipeline.ΦA spec1 c
  | n + 1, hn => iprop((owns (c : Thread nD τ) acc1 fullShare (accAt1 V c n hn) ∗ rest1 c) ∗ ∃ r, prngReg c r)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) acc1 fullShare (accAt1 V c n hn) ∗ rest1 c) ∗ ∃ r, prngReg c r) := rfl

theorem PhiS1_pos (c : Dev nD) (n : ℕ) (h : n ≤ cfg1.N) (hz : n ≠ 0) :
    PhiS1 V c n h = iprop((owns (c : Thread nD τ) acc1 fullShare (accAt1 V c (n - 1) (by omega)) ∗ rest1 c) ∗ ∃ r, prngReg c r) := by
  cases n with
  | zero => exact absurd rfl hz
  | succ n => rfl

/-- The proof data of product 1: the matrices as the product finds them; after the body each operand's staging
    buffer still at its block, the result's at the hyperbolic tangent of the running product (consulted only at the
    points that write the block back); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (accAt1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (accAt1 V c t.val t.isLt) := by dsimp only [dat1]

/-- Each operand's current staging buffer holds its block at every point: it is fetched at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

end

end Cert.KernelIdeal.Hand

end
-- ==== Proof.KI.Body1.lean ====
/-
  Product 1: the body obligation of the pipeline rule. At each of the 128 grid points the body, run on the current
  staging buffers, turns the invariant before the point into the invariant after it and leaves each window's buffer
  as the proof data say.
-/
import proofs.«122110_j65481071399768_1_alg».proof.Proof.KI.Step1
import proofs.«122110_j65481071399768_1_alg».proof.Proof.KI.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Product 1: the body at a generic point -/

/-- What the body is called with at point `t`: the invariant, the core owing nothing, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The operands' buffers are handed back at their blocks. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
/-- Away from a run's last point the result's buffer is handed back as it came; at the last point it holds the
    hyperbolic tangent of the finished product. -/
theorem leaves1_2_idle (c : Dev nD) (t : Fin cfg1.N) (hc1 : ¬cond1_1 (grid1.coords t)) :
    (dat1 V c).leavesExact 2 t = iprop(∃ d, owns (c : Thread nD τ) (ms1_2 t) fullShare ((dat1 V c).before 2 t d)) :=
  Dat.leavesExact_idle (dat1 V c) 2 t (idleAt1_2 t hc1) (noFlush1_2 t hc1)
theorem leaves1_2_live (c : Dev nD) (t : Fin cfg1.N) (hc1 : cond1_1 (grid1.coords t)) :
    (dat1 V c).leavesExact 2 t = owns (c : Thread nD τ) (ms1_2 t) fullShare (k1_pay3 (accAt1 V c t.val t.isLt)) := by
  rw [show (dat1 V c).leavesExact 2 t = owns (c : Thread nD τ) (ms1_2 t) fullShare ((dat1 V c).after 2 t) from by
    unfold Dat.leavesExact; rw [liveAt1_2 t hc1], after1_2]

set_option maxHeartbeats 4000000 in
/-- The body at any point. The point's place in its run of eight selects the case; the operands' buffers hold their
    blocks; the invariant hands over the running product as the point before left it (anything, at a run's first
    point) and takes it back as this point leaves it; away from a run's last point the result's buffer goes back as
    it came, at the last it holds the hyperbolic tangent of the finished product. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [leaves1_0, leaves1_1]
  have hN : t.val < 128 := lt_of_lt_of_eq t.isLt (show cfg1.N = 128 from N_1)
  by_cases h0 : t.val % 8 = 0
  · have hc0 : cond1_0 (grid1.coords t) := (hcond1_0 t).mpr h0
    have hc1 : ¬cond1_1 (grid1.coords t) := fun h => by have := (hcond1_1 t).mp h; omega
    rw [leaves1_2_idle V c t hc1, accAt1_first V c t h0]
    by_cases hz : t.val = 0
    · rw [Phi1_castSucc V c t, PhiS1_zero V c _ _ hz, PhiA1_eq]
      iintro ⟨⟨⟨HS, Hr⟩, Hg⟩, Ho, ⟨%d0, H0⟩, ⟨%d1, H1⟩, ⟨%d2, H2⟩⟩
      iapply (step1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [Phi1_castSucc V c t, PhiS1_pos V c _ _ hz]
      iintro ⟨⟨⟨HS, Hr⟩, Hg⟩, Ho, ⟨%d0, H0⟩, ⟨%d1, H1⟩, ⟨%d2, H2⟩⟩
      iapply (step1_first c Set.univ (grid1.coords t) _ _ _ _ _ _ _ _ hc0 hc1 (iblk1 V c 0 t) (iblk1 V c 1 t) _ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hc0 : ¬cond1_0 (grid1.coords t) := fun h => h0 ((hcond1_0 t).mp h)
    have hz : t.val ≠ 0 := fun h => h0 (by rw [h])
    rw [accAt1_next V c t h0, Phi1_castSucc V c t, PhiS1_pos V c _ _ hz]
    by_cases h1 : t.val % 8 = 7
    · have hc1 : cond1_1 (grid1.coords t) := (hcond1_1 t).mpr h1
      rw [leaves1_2_live V c t hc1, accAt1_next V c t h0]
      iintro ⟨⟨⟨HS, Hr⟩, Hg⟩, Ho, ⟨%d0, H0⟩, ⟨%d1, H1⟩, ⟨%d2, H2⟩⟩
      iapply (step1_last c Set.univ (grid1.coords t) _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond1_1 (grid1.coords t) := fun h => h1 ((hcond1_1 t).mp h)
      rw [leaves1_2_idle V c t hc1]
      iintro ⟨⟨⟨HS, Hr⟩, Hg⟩, Ho, ⟨%d0, H0⟩, ⟨%d1, H1⟩, ⟨%d2, H2⟩⟩
      iapply (step1_mid c Set.univ (grid1.coords t) _ _ _ _ _ _ _ _ hc0 hc1 (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

/-- Entering the product: what the kernel region starts with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- Leaving it: the running product's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, Hr⟩, Hg⟩
  isplitl [HS Hr]
  · isplitl [HS]; · iexists _; iexact HS
    iexact Hr
  iexact Hg

end

end Cert.KernelIdeal.Hand

end
-- ==== Proof.KI.Step2.lean ====
/-
  One grid step of the product number 2, on whole staging buffers: what each buffer holds afterwards, in the three
  cases the grid's last coordinate selects.
-/
import proofs.«122110_j65481071399768_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## One grid step of product 2

The body on whole buffers, case by case. `x0` is the block of the left matrix and `x1` the block of the right one;
`k2_pay2 x0 x1 s` is the running product `s` plus the product of the two blocks, `k2_pay1` the zero block, and
`k2_pay3` the hyperbolic tangent entry by entry. Every load and store is of a whole buffer, so each buffer ends
holding exactly the last value stored into it. -/

set_option maxHeartbeats 1000000 in
/-- At the first block of the contraction: whatever the running product's buffer held, it ends at zero plus the
    blocks' product; the result's block is not touched. -/
theorem step2_first (c : Dev nD) (E : Set ℕ) (i : grid2.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : cond2_0 i) (hc1 : ¬cond2_1 i)
    (x0 : Vec F S1024x512 .f32) (x1 : Vec F S512x1024 .f32) (y : Vec F S1024x1024 .f32) (K : PUnit → sProp 𝕄) :
    iprop(owns (c : Thread nD τ) arg3 fullShare x0 ∗ owns (c : Thread nD τ) arg4 fullShare x1
        ∗ owns (c : Thread nD τ) arg5 fullShare y ∗ (∃ s, owns (c : Thread nD τ) arg6 fullShare s)
        ∗ (iprop(owns (c : Thread nD τ) arg3 fullShare x0 ∗ owns (c : Thread nD τ) arg4 fullShare x1
            ∗ owns (c : Thread nD τ) arg5 fullShare y ∗ owns (c : Thread nD τ) arg6 fullShare (k2_pay2 x0 x1 k2_pay1)) -∗ K ⟨⟩))
      ⊢ wp frame (wpE (defs₀ (F := F)) Variants.none c none) E (cc2__matmul_tanh_kernel i arg3 harg3 arg4 harg4 arg5 harg5 arg6 harg6) K := by
  simp only [cc2__matmul_tanh_kernel_eq_skeleton]; unfold cc2__matmul_tanh_kernel_skel
  unfold owns
  iintro ⟨⟨%f0, %hf0, H0⟩, ⟨%f1, %hf1, H1⟩, ⟨%f2, %hf2, H2⟩, ⟨%s, %fs, -, HS⟩, Hk⟩
  obtain rfl := harg3.eq_unread hf0; obtain rfl := harg4.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readCov_unit_zero (S := S1024x1024) _ hz]

set_option maxHeartbeats 1000000 in
/-- At a middle block: the running product `s` gains the blocks' product; the result's block is not touched. -/
theorem step2_mid (c : Dev nD) (E : Set ℕ) (i : grid2.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond2_0 i) (hc1 : ¬cond2_1 i)
    (x0 : Vec F S1024x512 .f32) (x1 : Vec F S512x1024 .f32) (y : Vec F S1024x1024 .f32) (s : Vec F S1024x1024 .f32) (K : PUnit → sProp 𝕄) :
    iprop(owns (c : Thread nD τ) arg3 fullShare x0 ∗ owns (c : Thread nD τ) arg4 fullShare x1
        ∗ owns (c : Thread nD τ) arg5 fullShare y ∗ owns (c : Thread nD τ) arg6 fullShare s
        ∗ (iprop(owns (c : Thread nD τ) arg3 fullShare x0 ∗ owns (c : Thread nD τ) arg4 fullShare x1
            ∗ owns (c : Thread nD τ) arg5 fullShare y ∗ owns (c : Thread nD τ) arg6 fullShare (k2_pay2 x0 x1 s)) -∗ K ⟨⟩))
      ⊢ wp frame (wpE (defs₀ (F := F)) Variants.none c none) E (cc2__matmul_tanh_kernel i arg3 harg3 arg4 harg4 arg5 harg5 arg6 harg6) K := by
  simp only [cc2__matmul_tanh_kernel_eq_skeleton]; unfold cc2__matmul_tanh_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

set_option maxHeartbeats 1000000 in
/-- At the last block: the running product gains the blocks' product, and its hyperbolic tangent is stored into the
    result's block, whatever that held. -/
theorem step2_last (c : Dev nD) (E : Set ℕ) (i : grid2.Coords)
    (arg3 : Memref sig .tc .vmem S1024x512 .f32) (harg3 : arg3.IsWhole) (arg4 : Memref sig .tc .vmem S512x1024 .f32) (harg4 : arg4.IsWhole)
    (arg5 : Memref sig .tc .vmem S1024x1024 .f32) (harg5 : arg5.IsWhole) (arg6 : Memref sig .tc .vmem S1024x1024 .f32) (harg6 : arg6.IsWhole)
    (hc0 : ¬cond2_0 i) (hc1 : cond2_1 i)
    (x0 : Vec F S1024x512 .f32) (x1 : Vec F S512x1024 .f32) (s : Vec F S1024x1024 .f32) (K : PUnit → sProp 𝕄) :
    iprop(owns (c : Thread nD τ) arg3 fullShare x0 ∗ owns (c : Thread nD τ) arg4 fullShare x1
        ∗ (∃ d, owns (c : Thread nD τ) arg5 fullShare d) ∗ owns (c : Thread nD τ) arg6 fullShare s
        ∗ (iprop(owns (c : Thread nD τ) arg3 fullShare x0 ∗ owns (c : Thread nD τ) arg4 fullShare x1
            ∗ owns (c : Thread nD τ) arg5 fullShare (k2_pay3 (k2_pay2 x0 x1 s)) ∗ owns (c : Thread nD τ) arg6 fullShare (k2_pay2 x0 x1 s)) -∗ K ⟨⟩))
      ⊢ wp frame (wpE (defs₀ (F := F)) Variants.none c none) E (cc2__matmul_tanh_kernel i arg3 harg3 arg4 harg4 arg5 harg5 arg6 harg6) K := by
  simp only [cc2__matmul_tanh_kernel_eq_skeleton]; unfold cc2__matmul_tanh_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    have hz : (![0, 0] : Fin 2 → Nat) = fun _ => 0 := by funext a; fin_cases a <;> rfl
    rw [View.read_writes_unit_zero _ _ hz, View.readCov_unit_zero (S := S1024x1024) _ hz]
    rw [View.readAt_unit_zero _ _ hz _ _ (harg3.read_unread _), View.readAt_unit_zero _ _ hz _ _ (harg4.read_unread _), View.readAt_unit_zero _ _ hz _ _ (harg6.read_unread _)]
  iexists _; isplitr
  swap; · iexact HS
  ipureintro
  sl_unfold_words
  have hz : (![0, 0] : Fin 2 → Nat) = fun _ => 0 := by funext a; fin_cases a <;> rfl
  rw [View.read_writes_unit_zero _ _ hz]
  rw [View.readAt_unit_zero _ _ hz _ _ (harg3.read_unread _), View.readAt_unit_zero _ _ hz _ _ (harg4.read_unread _), View.readAt_unit_zero _ _ hz _ _ (harg6.read_unread _)]

end Cert.KernelIdeal.Hand

end
-- ==== Proof.KI.Dat2.lean ====
/-
  Product 2 as a pipeline: the blocks its windows carry, the running product point by point, and the proof data the
  pipeline rule takes (what each staging buffer holds after the body; the invariant carrying the running product).
-/
import proofs.«122110_j65481071399768_1_alg».proof.Proof.KI.Cases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
-- the unscoped buffers' contents when the product is entered
variable (V : (c : Dev nD) → (b : Ref sig .tc) → Buf (Elt F) ((c : Thread nD τ).loc b))

/-! ## Product 2: the blocks, the running product, and the proof data -/

/-- Window `w`'s block at point `t`, read off its matrix as the product finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left matrix's 1024 × 512 block and the right matrix's 512 × 1024 block at point `t`. -/
abbrev lblk2 (c : Dev nD) (t : Fin cfg2.N) : Vec F S1024x512 .f32 := iblk2 V c 0 t
abbrev rblk2 (c : Dev nD) (t : Fin cfg2.N) : Vec F S512x1024 .f32 := iblk2 V c 1 t

/-- THE RUNNING PRODUCT after point `n`: at a point ≡ 0 (mod 8) zero plus the blocks' product, at every other point
    what the point before left plus the blocks' product. -/
def accAt2 (c : Dev nD) : (n : ℕ) → n < cfg2.N → Vec F S1024x1024 .f32
  | 0, hn => k2_pay2 (lblk2 V c ⟨0, hn⟩) (rblk2 V c ⟨0, hn⟩) k2_pay1
  | n + 1, hn =>
    if (n + 1) % 8 = 0 then k2_pay2 (lblk2 V c ⟨n + 1, hn⟩) (rblk2 V c ⟨n + 1, hn⟩) k2_pay1
    else k2_pay2 (lblk2 V c ⟨n + 1, hn⟩) (rblk2 V c ⟨n + 1, hn⟩) (accAt2 c n (Nat.lt_of_succ_lt hn))

theorem accAt2_first (c : Dev nD) (t : Fin cfg2.N) (h : t.val % 8 = 0) :
    accAt2 V c t.val t.isLt = k2_pay2 (lblk2 V c t) (rblk2 V c t) k2_pay1 := by
  obtain ⟨n, hn⟩ := t
  cases n with
  | zero => rfl
  | succ n => exact if_pos h

theorem accAt2_next (c : Dev nD) (t : Fin cfg2.N) (h : ¬t.val % 8 = 0) :
    accAt2 V c t.val t.isLt
      = k2_pay2 (lblk2 V c t) (rblk2 V c t) (accAt2 V c (t.val - 1) (Nat.lt_of_le_of_lt (Nat.sub_le _ _) t.isLt)) := by
  obtain ⟨n, hn⟩ := t
  cases n with
  | zero => exact absurd (Nat.zero_mod _) h
  | succ n => exact if_neg h

/-- The kernel's other scoped buffers — the staging buffers and running products of the other two products —, each at
    some contents: they ride through this product untouched. -/
def rest2 (c : Dev nD) : sProp 𝕄 :=
  Pipeline.scopedRestBut (Ix := Unit) (Name := ℕ) (U := UR sig nD τ) (Lvl := ℕ) (Val := Elt F) spec2 c [cc2_scratch0]

/-- What the product is entered with beside its windows: the running product's buffer at anything, the other scoped
    buffers, the generator register. -/
theorem PhiA2_eq (c : Dev nD) :
    (Pipeline.ΦA spec2 c : sProp 𝕄)
      = iprop(((∃ d, owns (c : Thread nD τ) acc2 fullShare d) ∗ rest2 c) ∗ ∃ r, prngReg c r) := by
  unfold Pipeline.ΦA rest2
  rw [Pipeline.scopedRest_split_of_list spec2 c [cc2_scratch0] (by decide) (by decide)]
  simp only [acc2, owns_whole, bigSepL]
  try rfl

/-- The invariant between points: before the first the buffer of the running product holds anything; after point `n`
    it holds the running product there. -/
def PhiS2 (c : Dev nD) : (n : ℕ) → n ≤ cfg2.N → sProp 𝕄
  | 0, _ => Pipeline.ΦA spec2 c
  | n + 1, hn => iprop((owns (c : Thread nD τ) acc2 fullShare (accAt2 V c n hn) ∗ rest2 c) ∗ ∃ r, prngReg c r)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop((owns (c : Thread nD τ) acc2 fullShare (accAt2 V c n hn) ∗ rest2 c) ∗ ∃ r, prngReg c r) := rfl

theorem PhiS2_pos (c : Dev nD) (n : ℕ) (h : n ≤ cfg2.N) (hz : n ≠ 0) :
    PhiS2 V c n h = iprop((owns (c : Thread nD τ) acc2 fullShare (accAt2 V c (n - 1) (by omega)) ∗ rest2 c) ∗ ∃ r, prngReg c r) := by
  cases n with
  | zero => exact absurd rfl hz
  | succ n => rfl

/-- The proof data of product 2: the matrices as the product finds them; after the body each operand's staging
    buffer still at its block, the result's at the hyperbolic tangent of the running product (consulted only at the
    points that write the block back); the invariant above; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (accAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = k2_pay3 (accAt2 V c t.val t.isLt) := by dsimp only [dat2]

/-- Each operand's current staging buffer holds its block at every point: it is fetched at every point. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

end

end Cert.KernelIdeal.Hand

end
-- ==== Proof.KI.Body2.lean ====
/-
  Product 2: the body obligation of the pipeline rule. At each of the 128 grid points the body, run on the current
  staging buffers, turns the invariant before the point into the invariant after it and leaves each window's buffer
  as the proof data say.
-/
import proofs.«122110_j65481071399768_1_alg».proof.Proof.KI.Step2
import proofs.«122110_j65481071399768_1_alg».proof.Proof.KI.Dat2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## Product 2: the body at a generic point -/

/-- What the body is called with at point `t`: the invariant, the core owing nothing, each window's current buffer. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

/-- The operands' buffers are handed back at their blocks. -/
theorem leaves2_0 (c : Dev nD) (t : Fin cfg2.N) :
    (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) :
    (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
/-- Away from a run's last point the result's buffer is handed back as it came; at the last point it holds the
    hyperbolic tangent of the finished product. -/
theorem leaves2_2_idle (c : Dev nD) (t : Fin cfg2.N) (hc1 : ¬cond2_1 (grid2.coords t)) :
    (dat2 V c).leavesExact 2 t = iprop(∃ d, owns (c : Thread nD τ) (ms2_2 t) fullShare ((dat2 V c).before 2 t d)) :=
  Dat.leavesExact_idle (dat2 V c) 2 t (idleAt2_2 t hc1) (noFlush2_2 t hc1)
theorem leaves2_2_live (c : Dev nD) (t : Fin cfg2.N) (hc1 : cond2_1 (grid2.coords t)) :
    (dat2 V c).leavesExact 2 t = owns (c : Thread nD τ) (ms2_2 t) fullShare (k2_pay3 (accAt2 V c t.val t.isLt)) := by
  rw [show (dat2 V c).leavesExact 2 t = owns (c : Thread nD τ) (ms2_2 t) fullShare ((dat2 V c).after 2 t) from by
    unfold Dat.leavesExact; rw [liveAt2_2 t hc1], after2_2]

set_option maxHeartbeats 4000000 in
/-- The body at any point. The point's place in its run of eight selects the case; the operands' buffers hold their
    blocks; the invariant hands over the running product as the point before left it (anything, at a run's first
    point) and takes it back as this point leaves it; away from a run's last point the result's buffer goes back as
    it came, at the last it holds the hyperbolic tangent of the finished product. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [leaves2_0, leaves2_1]
  have hN : t.val < 128 := lt_of_lt_of_eq t.isLt (show cfg2.N = 128 from N_2)
  by_cases h0 : t.val % 8 = 0
  · have hc0 : cond2_0 (grid2.coords t) := (hcond2_0 t).mpr h0
    have hc1 : ¬cond2_1 (grid2.coords t) := fun h => by have := (hcond2_1 t).mp h; omega
    rw [leaves2_2_idle V c t hc1, accAt2_first V c t h0]
    by_cases hz : t.val = 0
    · rw [Phi2_castSucc V c t, PhiS2_zero V c _ _ hz, PhiA2_eq]
      iintro ⟨⟨⟨HS, Hr⟩, Hg⟩, Ho, ⟨%d0, H0⟩, ⟨%d1, H1⟩, ⟨%d2, H2⟩⟩
      iapply (step2_first c Set.univ (grid2.coords t) _ _ _ _ _ _ _ _ hc0 hc1 (iblk2 V c 0 t) (iblk2 V c 1 t) _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
    · rw [Phi2_castSucc V c t, PhiS2_pos V c _ _ hz]
      iintro ⟨⟨⟨HS, Hr⟩, Hg⟩, Ho, ⟨%d0, H0⟩, ⟨%d1, H1⟩, ⟨%d2, H2⟩⟩
      iapply (step2_first c Set.univ (grid2.coords t) _ _ _ _ _ _ _ _ hc0 hc1 (iblk2 V c 0 t) (iblk2 V c 1 t) _ _)
      isplitl [H0]; · iexact H0
      isplitl [H1]; · iexact H1
      isplitl [H2]; · iexact H2
      isplitl [HS]; · iexists _; iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2
  · have hc0 : ¬cond2_0 (grid2.coords t) := fun h => h0 ((hcond2_0 t).mp h)
    have hz : t.val ≠ 0 := fun h => h0 (by rw [h])
    rw [accAt2_next V c t h0, Phi2_castSucc V c t, PhiS2_pos V c _ _ hz]
    by_cases h1 : t.val % 8 = 7
    · have hc1 : cond2_1 (grid2.coords t) := (hcond2_1 t).mpr h1
      rw [leaves2_2_live V c t hc1, accAt2_next V c t h0]
      iintro ⟨⟨⟨HS, Hr⟩, Hg⟩, Ho, ⟨%d0, H0⟩, ⟨%d1, H1⟩, ⟨%d2, H2⟩⟩
      iapply (step2_last c Set.univ (grid2.coords t) _ _ _ _ _ _ _ _ hc0 hc1 (iblk2 V c 0 t) (iblk2 V c 1 t) _ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · have hc1 : ¬cond2_1 (grid2.coords t) := fun h => h1 ((hcond2_1 t).mp h)
      rw [leaves2_2_idle V c t hc1]
      iintro ⟨⟨⟨HS, Hr⟩, Hg⟩, Ho, ⟨%d0, H0⟩, ⟨%d1, H1⟩, ⟨%d2, H2⟩⟩
      iapply (step2_mid c Set.univ (grid2.coords t) _ _ _ _ _ _ _ _ hc0 hc1 (iblk2 V c 0 t) (iblk2 V c 1 t) _ _ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

/-- Entering the product: what the kernel region starts with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- Leaving it: the running product's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨⟨HS, Hr⟩, Hg⟩
  isplitl [HS Hr]
  · isplitl [HS]; · iexists _; iexact HS
    iexact Hr
  iexact Hg

end

end Cert.KernelIdeal.Hand

end
-- ==== Proof.KI.Run.lean ====
/-
  The whole program at any value type: three products in a row, each a pipeline over its own grid, then the head's
  host operations. Between two items every unscoped buffer is held at a named valuation — the launch memory, then each
  product's result written into its matrix, then the head's operations applied —, so the run ends with the result at
  the last valuation and the four arguments as launched.
-/
import proofs.«122110_j65481071399768_1_alg».proof.Proof.KI.Body0
import proofs.«122110_j65481071399768_1_alg».proof.Proof.KI.Body1
import proofs.«122110_j65481071399768_1_alg».proof.Proof.KI.Body2
import proofs.«122110_j65481071399768_1_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch, as a valuation and read at the TensorCore's references. -/
abbrev W0 : Dev nD → Valuation τ sig (Elt F) := fun c b => m (c, b)
abbrev E0 : (c : Dev nD) → (b : Ref sig .tc) → Buf (Elt F) ((c : Thread nD τ).loc b) := fun c b => W0 m c b

/-- After product 0: its three matrices at what the write-backs leave (the operands as entered, the result's blocks
    written in point order), every other buffer as entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev E1 : (c : Dev nD) → (b : Ref sig .tc) → Buf (Elt F) ((c : Thread nD τ).loc b) := fun c b => W1 m c b
theorem hF0 (c : Dev nD) (w : Fin cfg0.W) : (dat0 (E0 m) c).arrAt w cfg0.N = E1 m c (Pipeline.arrRef spec0 w) :=
  (W1_arr m c w).symm
theorem hrest0 (c : Dev nD) : ∀ b, b ∉ Finset.univ.image (Pipeline.arrRef spec0) → E1 m c b = E0 m c b :=
  fun b hb => W1_of_ne m c b fun w e => hb (Finset.mem_image.mpr ⟨w, Finset.mem_univ _, e⟩)

/-- After product 1: its three matrices at what the write-backs leave (the operands as entered, the result's blocks
    written in point order), every other buffer as entered. -/
def W2 (c : Dev nD) : Valuation τ sig (Elt F) :=
  Pipeline.withArrays spec1 c (W1 m c) fun w => (dat1 (E1 m) c).arrAt w cfg1.N
theorem W2_arr (c : Dev nD) (w : Fin cfg1.W) :
    W2 m c (Proc.devRef .tc (Pipeline.arrRef spec1 w)) = (dat1 (E1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev E2 : (c : Dev nD) → (b : Ref sig .tc) → Buf (Elt F) ((c : Thread nD τ).loc b) := fun c b => W2 m c b
theorem hF1 (c : Dev nD) (w : Fin cfg1.W) : (dat1 (E1 m) c).arrAt w cfg1.N = E2 m c (Pipeline.arrRef spec1 w) :=
  (W2_arr m c w).symm
theorem hrest1 (c : Dev nD) : ∀ b, b ∉ Finset.univ.image (Pipeline.arrRef spec1) → E2 m c b = E1 m c b :=
  fun b hb => W2_of_ne m c b fun w e => hb (Finset.mem_image.mpr ⟨w, Finset.mem_univ _, e⟩)

/-- After product 2: its three matrices at what the write-backs leave (the operands as entered, the result's blocks
    written in point order), every other buffer as entered. -/
def W3 (c : Dev nD) : Valuation τ sig (Elt F) :=
  Pipeline.withArrays spec2 c (W2 m c) fun w => (dat2 (E2 m) c).arrAt w cfg2.N
theorem W3_arr (c : Dev nD) (w : Fin cfg2.W) :
    W3 m c (Proc.devRef .tc (Pipeline.arrRef spec2 w)) = (dat2 (E2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references. -/
abbrev E3 : (c : Dev nD) → (b : Ref sig .tc) → Buf (Elt F) ((c : Thread nD τ).loc b) := fun c b => W3 m c b
theorem hF2 (c : Dev nD) (w : Fin cfg2.W) : (dat2 (E2 m) c).arrAt w cfg2.N = E3 m c (Pipeline.arrRef spec2 w) :=
  (W3_arr m c w).symm
theorem hrest2 (c : Dev nD) : ∀ b, b ∉ Finset.univ.image (Pipeline.arrRef spec2) → E3 m c b = E2 m c b :=
  fun b hb => W3_of_ne m c b fun w e => hb (Finset.mem_image.mpr ⟨w, Finset.mem_univ _, e⟩)

/-- After the head's host operations. -/
abbrev W4 : Dev nD → Valuation τ sig (Elt F) := fun c => StableHlo.after hostOps3 (W3 m c)

/-! ## The arguments end as launched: each is an operand of one product and is written by nothing -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps3 _ hostOps3_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := (W1_arr m c 1).trans (((dat0 (E0 m) c).arrAt_in 1 rfl _).trans (A_eq0 (E0 m) c 1))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps3 _ hostOps3_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 0).trans (((dat0 (E0 m) c).arrAt_in 0 rfl _).trans (A_eq0 (E0 m) c 0))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps3 _ hostOps3_writes (by decide)
    _ = W2 m c (Proc.devRef .tc main_arg2) := W3_of_ne m c main_arg2 (by decide)
    _ = W1 m c (Proc.devRef .tc main_arg2) := (W2_arr m c 0).trans (((dat1 (E1 m) c).arrAt_in 0 rfl _).trans (A_eq1 (E1 m) c 0))
    _ = W0 m c (Proc.devRef .tc main_arg2) := W1_of_ne m c main_arg2 (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps3 _ hostOps3_writes (by decide)
    _ = W2 m c (Proc.devRef .tc main_arg3) := (W3_arr m c 0).trans (((dat2 (E2 m) c).arrAt_in 0 rfl _).trans (A_eq2 (E2 m) c 0))
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

/-! ## The proof data family and the thread state -/

abbrev adm : (p : Fin 3) → (pcfgs (F := F) p).Adm := fun p => (cfgs p).toPCfg_adm
/-- Every product's proof data, each at the contents it is entered with. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)

/-- The head's operations as a segment. -/
abbrev hseg : Pipeline.HostSeg (Name := ℕ) (U := UR sig nD τ) (pcfgs (F := F)) defs₀ 𝒱₀ L lv :=
  Pipeline.HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W3 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The products as segments -/

-- the library's lemmas are stated over a family of pipelines read at an index; matching them against this product's
-- own configuration needs definitions unfolded inside the types of unknowns
set_option backward.isDefEq.respectTransparency.types false in
/-- Product 0 as a segment of the program: entered with every unscoped buffer at `W0`, left with them at `W1`.
    Its three matrices are split out of the unscoped buffers and put back at what the write-backs leave; the generator
    register and the kernel's scoped buffers pass into the invariant and out; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (hin0 (E0 m) c)
    unfold Pipeline.ΦA
    iintro ⟨Hp, -, Hr⟩
    isplitl [Hr]; · iexact Hr
    iexact Hp
  hout c := by
    refine (hout0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a family of pipelines read at an index; matching them against this product's
-- own configuration needs definitions unfolded inside the types of unknowns
set_option backward.isDefEq.respectTransparency.types false in
/-- Product 1 as a segment of the program: entered with every unscoped buffer at `W1`, left with them at `W2`.
    Its three matrices are split out of the unscoped buffers and put back at what the write-backs leave; the generator
    register and the kernel's scoped buffers pass into the invariant and out; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (hin1 (E1 m) c)
    unfold Pipeline.ΦA
    iintro ⟨Hp, -, Hr⟩
    isplitl [Hr]; · iexact Hr
    iexact Hp
  hout c := by
    refine (hout1 (E1 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a family of pipelines read at an index; matching them against this product's
-- own configuration needs definitions unfolded inside the types of unknowns
set_option backward.isDefEq.respectTransparency.types false in
/-- Product 2 as a segment of the program: entered with every unscoped buffer at `W2`, left with them at `W3`.
    Its three matrices are split out of the unscoped buffers and put back at what the write-backs leave; the generator
    register and the kernel's scoped buffers pass into the invariant and out; nothing is owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec2 c from ?_).trans (hin2 (E2 m) c)
    unfold Pipeline.ΦA
    iintro ⟨Hp, -, Hr⟩
    isplitl [Hr]; · iexact Hr
    iexact Hp
  hout c := by
    refine (hout2 (E2 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segs : List (Pipeline.Seg (pcfgs (F := F)) adm (pdats m) () defs₀ 𝒱₀ L lv) :=
  [ .region (reg0 m), .region (reg1 m), .region (reg2 m), .host (hseg m) ]

theorem main_run (c : Dev nD) : main (F := F) c = Pipeline.Seg.run (segs m) := (main_chain c).trans (by chain_rfl)

set_option backward.isDefEq.respectTransparency.types false in
/-- THE RUN. From any memory with zero counters every weakly fair execution of the program terminates, nothing
    faulting; the result then holds what the head's operations make of the third product's matrix (`W4`), and the four
    arguments are as launched. -/
theorem run_main : θ_run defs (onTc (τ := τ) (main (F := F))) ⟨m, fun _ => 0, ρ⟩ (fun r => ∀ c : Dev nD,
      r.2.mem ((c.tc : Thread nD τ).loc main_v19) = W4 m c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W4 m c))
    (hch := ⟨fun _ => .rfl, fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v19 (by decide)),
        (h c _ (mem_uc main_arg0 (by decide))).trans (W4_main_arg0 m c),
        (h c _ (mem_uc main_arg1 (by decide))).trans (W4_main_arg1 m c),
        (h c _ (mem_uc main_arg2 (by decide))).trans (W4_main_arg2 m c),
        (h c _ (mem_uc main_arg3 (by decide))).trans (W4_main_arg3 m c)⟩)

end Cert.KernelIdeal.Hand

end
-- ==== Proof.Spec.lean ====
/-
  The specification of the three-layer tanh network with a softmax head, over the extended reals.

  * `tanhProd A B` is the matrix product followed by the hyperbolic tangent, entry by entry:
    the entry (p, q) is tanh (∑ k, A (p, k) · B (k, q)), the sum over the 4096 contracted positions, in the
    extended reals (a float is an extended real, every operation the exact one).
  * `head h` is what follows the third product: the sum of each row of `h` from zero, divided by 4096 (the row
    mean `μ`), its cosine `q = cos μ`, the vector `[q, 1 − q]` of length 8192, and its softmax — the maximum `M` of
    the vector from −∞, `e = exp (v − M)`, the sum `Σ` of `e` from zero, and `e / Σ`. It is written as the
    composition of its twenty-three array operations, one line each, with the literals as their binary words,
    so that a program performing the same operations on the same literals computes `head` on the nose.

  The result of the network on the input `x` and the weights `W0`, `W1`, `W2` is
  `head (tanhProd W2 (tanhProd W1 (tanhProd W0 x)))`.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The 4096 × 4096 matrices. -/
abbrev Mat : Shape := ⟨2, ![4096, 4096]⟩
/-- The result: a vector of 8192 entries. -/
abbrev Out : Shape := ⟨1, ![8192]⟩
/-- A vector of 4096 entries (one per row). -/
abbrev Row : Shape := ⟨1, ![4096]⟩
/-- A scalar. -/
abbrev Scalar : Shape := ⟨0, ![]⟩
/-- A vector of one entry. -/
abbrev One : Shape := ⟨1, ![1]⟩

/-- tanh of the matrix product, entry by entry over the extended reals. -/
def tanhProd (A B : FVec Ideal Mat .f32) : FVec Ideal Mat .f32 :=
  fun i => Ideal.tanh (∑ k : Fin 4096, A (ix2 (i 0) k) * B (ix2 k (i 1)))

/-! ## The shape relations of the head's operations -/

/-- Summing a matrix along its second axis leaves one entry per row. -/
theorem reducesTo_Mat_Row : Mat.ReducesTo [1] Row := by decide
/-- A scalar has an entry. -/
theorem scalar_pos : 0 < Scalar.numel := by decide
/-- A scalar spreads over a vector of 4096 entries. -/
theorem bcast_Scalar_Row : Scalar.BroadcastsInDim Row (![] : Fin 0 → Fin Row.rank) := by decide
/-- Two vectors of 4096 entries, one after the other, make a vector of 8192. -/
theorem concatenates_Row_Row_Out : Shape.Concatenates [Row, Row] Out 0 := by decide
/-- Reducing a vector along its only axis leaves a scalar. -/
theorem reducesTo_Out_Scalar : Out.ReducesTo [0] Scalar := by decide
/-- A scalar spreads over a vector of one entry. -/
theorem bcast_Scalar_One : Scalar.BroadcastsInDim One (![] : Fin 0 → Fin One.rank) := by decide
/-- A vector of one entry spreads over a vector of 8192 entries. -/
theorem bcast_One_Out : One.BroadcastsInDim Out (![0] : Fin 1 → Fin Out.rank) := by decide

/-- the head: row means, cosine, [q, 1 − q], softmax — the 23 host operations after the third product, composed,
    at F := Ideal. -/
def head (h : FVec Ideal Mat .f32) : FVec Ideal Out .f32 :=
  -- zero, the start of the row sums
  let zero : FVec Ideal Scalar .f32 := constant (F := Ideal) Scalar .f32 0x00000000#32
  -- the row sums
  let rowSum : FVec Ideal Row .f32 := Host.reduceAdd (F := Ideal) h zero reducesTo_Mat_Row scalar_pos
  -- 4096, spread over the rows
  let n : FVec Ideal Scalar .f32 := constant (F := Ideal) Scalar .f32 0x45800000#32
  let nRow : FVec Ideal Row .f32 := broadcastInDim Row ![] bcast_Scalar_Row n
  -- the row means and their cosines
  let mean : FVec Ideal Row .f32 := Host.divf (F := Ideal) rowSum nRow
  let q : FVec Ideal Row .f32 := Host.cos (F := Ideal) mean
  -- one, spread over the rows, and 1 − q
  let one : FVec Ideal Scalar .f32 := constant (F := Ideal) Scalar .f32 0x3F800000#32
  let oneRow : FVec Ideal Row .f32 := broadcastInDim Row ![] bcast_Scalar_Row one
  let q' : FVec Ideal Row .f32 := subf (F := Ideal) oneRow q
  -- the vector [q, 1 − q]
  let v : FVec Ideal Out .f32 := concatenate Out 0 [⟨Row, q⟩, ⟨Row, q'⟩] concatenates_Row_Row_Out
  -- its maximum, from −∞, and once more against −∞
  let negInf : FVec Ideal Scalar .f32 := constant (F := Ideal) Scalar .f32 0xFF800000#32
  let vmax : FVec Ideal Scalar .f32 := Host.reduce FloatOps.maximumf v negInf reducesTo_Out_Scalar scalar_pos
  let negInf' : FVec Ideal Scalar .f32 := constant (F := Ideal) Scalar .f32 0xFF800000#32
  let M : FVec Ideal Scalar .f32 := maximumf (F := Ideal) negInf' vmax
  -- the maximum spread over the vector
  let M1 : FVec Ideal One .f32 := broadcastInDim One ![] bcast_Scalar_One M
  let MOut : FVec Ideal Out .f32 := broadcastInDim Out ![0] bcast_One_Out M1
  -- exp (v − M)
  let d : FVec Ideal Out .f32 := subf (F := Ideal) v MOut
  let e : FVec Ideal Out .f32 := Host.exp (F := Ideal) d
  -- the sum of the exponentials, from zero, spread over the vector
  let zero' : FVec Ideal Scalar .f32 := constant (F := Ideal) Scalar .f32 0x00000000#32
  let total : FVec Ideal Scalar .f32 := Host.reduceAdd (F := Ideal) e zero' reducesTo_Out_Scalar scalar_pos
  let total1 : FVec Ideal One .f32 := broadcastInDim One ![] bcast_Scalar_One total
  let totalOut : FVec Ideal Out .f32 := broadcastInDim Out ![0] bcast_One_Out total1
  -- the quotient
  Host.divf (F := Ideal) e totalOut

end Cert.Spec

end
-- ==== Proof.KI.Tail.lean ====
/-
  The head of the idealized program: the twenty-three host operations after the third product, applied to that
  product's matrix, are the specification's `head` of it — the same operations on the same literals.
-/
import proofs.«122110_j65481071399768_1_alg».proof.Proof.KI.Run
import proofs.«122110_j65481071399768_1_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

set_option maxHeartbeats 4000000 in
/-- The result buffer after the head's operations is `head` of the third product's matrix. -/
theorem tail_eq (c : Dev nD) :
    W4 (F := Ideal) m c (Proc.devRef .tc main_v19) = Cert.Spec.head (W3 (F := Ideal) m c (Proc.devRef .tc main_v2)) := by
  show StableHlo.after hostOps3 (W3 (F := Ideal) m c) (Proc.devRef .tc main_v19) = _
  after_results_simp
  rfl

end Cert.KernelIdeal.Hand

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KI.Pay0.lean ====
/-
  The arithmetic of one grid point of product 0, entry by entry over the extended reals: the zero block is zero
  everywhere; one accumulation step adds, to each entry (p, q) of the running product, the 512 products of row p of
  the left block with column q of the right block; the closing step applies the hyperbolic tangent to each entry.
  A change of float format is the identity on the extended reals, and a cast between equal shapes moves nothing.
-/
import proofs.«122110_j65481071399768_1_alg».proof.Proof.KI.Dat0
import proofs.«122110_j65481071399768_1_alg».proof.Proof.LibRowDims
import Idealize.ShloMosaic.Lib.ValueIdx
import Idealize.ShloMosaic.Lib.Pipeline.Value
import Idealize.ShloMosaic.PureOps.Ideal
import Idealize.ShloMosaic.PureOps.Ideal.Laws
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-- The contraction of a 1024 × 512 block with a 512 × 1024 block is the plain one: rows by columns. -/
theorem dot0_plain : dot_S1024x512_S512x1024_S1024x1024_1_0_0_1_n_n = DotDims.plain 1024 512 1024 := rfl

/-- The zero block is zero at every entry. -/
theorem k0_pay1_apply (p q : Fin 1024) : (k0_pay1 (F := Ideal)) (ix2 p q) = 0 := by
  unfold k0_pay1
  simp only [shapeCast_self]
  exact Ideal.ofBits_zero_f32

/-- One accumulation step at the entry (p, q): the running product's entry plus the 512 products of the left block's
    row p with the right block's column q. -/
theorem k0_pay2_apply (x0 : Vec Ideal S1024x512 .f32) (x1 : Vec Ideal S512x1024 .f32) (s : Vec Ideal S1024x1024 .f32)
    (p q : Fin 1024) :
    k0_pay2 x0 x1 s (ix2 p q) = s (ix2 p q) + ∑ k : Fin 512, x0 (ix2 p k) * x1 (ix2 k q) := by
  unfold k0_pay2
  simp only [shapeCast_self]
  rw [addf_apply, dot0_plain]
  refine congrArg (s (ix2 p q) + ·) ?_
  exact (RowDims.matmul_plain_zero_apply none _ _ p q)

/-- The closing step at an entry: the hyperbolic tangent of the running product's entry. -/
theorem k0_pay3_apply (v : Vec Ideal S1024x1024 .f32) (i : S1024x1024.Idx) : k0_pay3 v i = Ideal.tanh (v i) := rfl

end Cert.KernelIdeal.Hand

end
-- ==== Proof.KI.Sums.lean ====
/-
  Rows against columns of two 4096 × 4096 matrices over the extended reals, read at natural numbers.

  * `at2 A r c` is the entry (r, c) of A, and zero outside the matrix, so that an entry can be named by arithmetic
    on block numbers and offsets without carrying the bounds along.
  * `dotTo A B r c n` is the sum of the products A (r, x) · B (x, c) over the first n contracted positions x.
    Growing n by m adds the next m products; at n = 4096 it is the whole contraction, so its hyperbolic tangent
    is the entry (r, c) of `tanhProd A B`.
-/
import proofs.«122110_j65481071399768_1_alg».proof.Proof.Spec
import Idealize.ShloMosaic.PureOps.Ideal
import Idealize.ShloMosaic.Lib.ValueIdx
import Mathlib.Algebra.BigOperators.Fin
import Mathlib.Algebra.BigOperators.Intervals

noncomputable section

open scoped BigOperators

namespace Cert.KernelIdeal.Hand

open Idealize.ShloMosaic Idealize.ShloMosaic.ValueIdx

/-- The entry (r, c) of a 4096 × 4096 matrix, read at natural numbers: zero outside the matrix. -/
def at2 (A : FVec Ideal Cert.Spec.Mat .f32) (r c : ℕ) : EReal :=
  if h : r < 4096 ∧ c < 4096 then A (ix2 ⟨r, h.1⟩ ⟨c, h.2⟩) else 0

theorem at2_of_lt (A : FVec Ideal Cert.Spec.Mat .f32) (r c : ℕ) (hr : r < 4096) (hc : c < 4096) :
    at2 A r c = A (ix2 ⟨r, hr⟩ ⟨c, hc⟩) := dif_pos ⟨hr, hc⟩

/-- The products of row r of A with column c of B, summed over the first n contracted positions. -/
def dotTo (A B : FVec Ideal Cert.Spec.Mat .f32) (r c n : ℕ) : EReal :=
  ∑ x ∈ Finset.range n, at2 A r x * at2 B x c

/-- m more contracted positions add the next m products. -/
theorem dotTo_add (A B : FVec Ideal Cert.Spec.Mat .f32) (r c n m : ℕ) :
    dotTo A B r c (n + m) = dotTo A B r c n + ∑ k : Fin m, at2 A r (n + k.val) * at2 B (n + k.val) c := by
  unfold dotTo
  rw [Finset.sum_range_add, Fin.sum_univ_eq_sum_range (fun x => at2 A r (n + x) * at2 B (n + x) c) m]

/-- Over no contracted position the sum is zero. -/
theorem dotTo_zero (A B : FVec Ideal Cert.Spec.Mat .f32) (r c : ℕ) : dotTo A B r c 0 = 0 := by
  unfold dotTo
  rw [Finset.range_zero, Finset.sum_empty]

/-- The entry of `tanhProd A B` at an index whose coordinates are r and c: the hyperbolic tangent of the whole
    contraction of row r with column c. -/
theorem tanhProd_apply (A B : FVec Ideal Cert.Spec.Mat .f32) (i : Cert.Spec.Mat.Idx) (r c : ℕ)
    (h0 : (i 0).val = r) (h1 : (i 1).val = c) :
    Cert.Spec.tanhProd A B i = Ideal.tanh (dotTo A B r c 4096) := by
  subst h0 h1
  unfold Cert.Spec.tanhProd dotTo
  rw [← Fin.sum_univ_eq_sum_range (fun x => at2 A (i 0).val x * at2 B x (i 1).val) 4096]
  refine congrArg Ideal.tanh (Finset.sum_congr rfl fun k _ => ?_)
  rw [at2_of_lt A _ _ (i 0).isLt k.isLt, at2_of_lt B _ _ k.isLt (i 1).isLt]
  rfl

end Cert.KernelIdeal.Hand

end
-- ==== Proof.KI.Blk0.lean ====
/-
  Where the blocks of product 0 sit in their matrices. The grid point t = 32·bi + 8·bj + kb stages the
  1024 × 512 block (bi, kb) of the left matrix and the 512 × 1024 block (kb, bj) of the right matrix: the entry
  (p, k) of the left block is the entry (1024·bi + p, 512·kb + k) of the left matrix, and the entry (k, q) of the
  right block is the entry (512·kb + k, 1024·bj + q) of the right matrix.
-/
import proofs.«122110_j65481071399768_1_alg».proof.Proof.KI.Dat0
import proofs.«122110_j65481071399768_1_alg».proof.Proof.KI.Sums
import proofs.«122110_j65481071399768_1_alg».proof.Proof.Gen.KernelIdeal.Points
import Idealize.ShloMosaic.Lib.ValueIdx
import Idealize.ShloMosaic.Lib.Pipeline.Value
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-- How the three index maps of product 0 read the grid point t = 32·bi + 8·bj + kb: the left matrix's block is
    (bi, kb), the right matrix's block is (kb, bj), the result's block is (bi, bj). -/
theorem idx_facts0 : ∀ t : Fin cfg0.N,
    win0_0.index t (0 : Fin 2) = t.val / 32 ∧ win0_0.index t (1 : Fin 2) = t.val % 8 ∧
    win0_1.index t (0 : Fin 2) = t.val % 8 ∧ win0_1.index t (1 : Fin 2) = (t.val / 8) % 4 ∧
    win0_2.index t (0 : Fin 2) = t.val / 32 ∧ win0_2.index t (1 : Fin 2) = (t.val / 8) % 4 :=
  (by decide +kernel : ∀ t : Fin grid0.N, _)

section
variable (V : (c : Dev nD) → (b : Ref sig .tc) → Buf (Elt Ideal) ((c : Thread nD τ).loc b))

/-- The left block at point t holds rows 1024·bi … of the left matrix and its columns 512·kb …. -/
theorem lblk0_apply (c : Dev nD) (t : Fin cfg0.N) (p : Fin 1024) (k : Fin 512) :
    lblk0 V c t (ix2 p k) = at2 (V c main_arg1) (1024 * (t.val / 32) + p.val) (512 * (t.val % 8) + k.val) := by
  have hN : cfg0.N = 128 := N_0
  have ht := t.isLt
  have hp := p.isLt
  have hk := k.isLt
  obtain ⟨h00, h01, -⟩ := idx_facts0 t
  unfold at2
  rw [dif_pos (by constructor <;> omega)]
  show V c main_arg1 (((cfg0.win 0).blk t).view.emb (ix2 p k)) = _
  refine congrArg (V c main_arg1) ?_
  funext a
  refine Fin.ext ?_
  match a with
  | ⟨0, _⟩ =>
    show win0_0.index t 0 * 1024 + 1 * p.val = 1024 * (t.val / 32) + p.val
    rw [h00]; omega
  | ⟨1, _⟩ =>
    show win0_0.index t 1 * 512 + 1 * k.val = 512 * (t.val % 8) + k.val
    rw [h01]; omega

/-- The right block at point t holds rows 512·kb … of the right matrix and its columns 1024·bj …. -/
theorem rblk0_apply (c : Dev nD) (t : Fin cfg0.N) (k : Fin 512) (q : Fin 1024) :
    rblk0 V c t (ix2 k q) = at2 (V c main_arg0) (512 * (t.val % 8) + k.val) (1024 * ((t.val / 8) % 4) + q.val) := by
  have hN : cfg0.N = 128 := N_0
  have ht := t.isLt
  have hq := q.isLt
  have hk := k.isLt
  obtain ⟨-, -, h10, h11, -⟩ := idx_facts0 t
  unfold at2
  rw [dif_pos (by constructor <;> omega)]
  show V c main_arg0 (((cfg0.win 1).blk t).view.emb (ix2 k q)) = _
  refine congrArg (V c main_arg0) ?_
  funext a
  refine Fin.ext ?_
  match a with
  | ⟨0, _⟩ =>
    show win0_1.index t 0 * 512 + 1 * k.val = 512 * (t.val % 8) + k.val
    rw [h10]; omega
  | ⟨1, _⟩ =>
    show win0_1.index t 1 * 1024 + 1 * q.val = 1024 * ((t.val / 8) % 4) + q.val
    rw [h11]; omega

end

end Cert.KernelIdeal.Hand

end
-- ==== Proof.KI.Acc0.lean ====
/-
  The running product of product 0, entry by entry. After the grid point n = 32·bi + 8·bj + kb the scratch buffer
  holds, at the entry (p, q), the products of row 1024·bi + p of the left matrix with column 1024·bj + q of the
  right matrix summed over the first 512·(kb + 1) contracted positions: the point with kb = 0 starts from zero and
  adds the first 512 products, and every later point of the run adds the next 512 to what the point before left
  (that point has the same bi and bj). Sums of extended reals are re-grouped freely: addition there is associative
  and commutative, and nothing here needs a finite value.
-/
import proofs.«122110_j65481071399768_1_alg».proof.Proof.KI.Pay0
import proofs.«122110_j65481071399768_1_alg».proof.Proof.KI.Blk0
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

/-- One step's contribution at the entry (p, q), read off the matrices. -/
theorem step0_apply (c : Dev nD) (t : Fin cfg0.N) (s : Vec Ideal S1024x1024 .f32) (p q : Fin 1024) :
    k0_pay2 (lblk0 V c t) (rblk0 V c t) s (ix2 p q)
      = s (ix2 p q) + ∑ k : Fin 512, at2 (V c main_arg1) (1024 * (t.val / 32) + p.val) (512 * (t.val % 8) + k.val)
          * at2 (V c main_arg0) (512 * (t.val % 8) + k.val) (1024 * ((t.val / 8) % 4) + q.val) := by
  refine (k0_pay2_apply (lblk0 V c t) (rblk0 V c t) s p q).trans ?_
  refine congrArg (s (ix2 p q) + ·) ?_
  refine Finset.sum_congr rfl fun k _ => ?_
  rw [lblk0_apply V c t p k, rblk0_apply V c t k q]

/-- THE RUNNING PRODUCT after point n = 32·bi + 8·bj + kb, at the entry (p, q): row 1024·bi + p of the left matrix
    against column 1024·bj + q of the right matrix, over the first 512·(kb + 1) contracted positions. -/
theorem accAt0_apply (c : Dev nD) (p q : Fin 1024) : ∀ (n : ℕ) (hn : n < cfg0.N),
    accAt0 V c n hn (ix2 p q)
      = dotTo (V c main_arg1) (V c main_arg0) (1024 * (n / 32) + p.val) (1024 * ((n / 8) % 4) + q.val) (512 * (n % 8 + 1))
  | n, hn => by
    by_cases h8 : n % 8 = 0
    · -- the first point of a run: zero plus the first 512 products
      refine (congrFun (accAt0_first V c ⟨n, hn⟩ h8) (ix2 p q)).trans ?_
      refine (step0_apply V c ⟨n, hn⟩ (k0_pay1 (F := Ideal)) p q).trans ?_
      rw [k0_pay1_apply, zero_add]
      show _ = dotTo _ _ _ _ (512 * (n % 8 + 1))
      rw [show 512 * (n % 8 + 1) = 0 + 512 by omega, dotTo_add]
      show ∑ k : Fin 512, at2 _ _ (512 * (n % 8) + k.val) * at2 _ (512 * (n % 8) + k.val) _ = _
      rw [h8]
      rw [dotTo_zero, zero_add]
    · -- a later point: what the point before left plus the next 512 products
      have ih := accAt0_apply c p q (n - 1) (by omega)
      refine (congrFun (accAt0_next V c ⟨n, hn⟩ h8) (ix2 p q)).trans ?_
      refine (step0_apply V c ⟨n, hn⟩ _ p q).trans ?_
      show accAt0 V c (n - 1) _ (ix2 p q) + ∑ k : Fin 512, at2 _ _ (512 * (n % 8) + k.val) * at2 _ (512 * (n % 8) + k.val) _ = _
      rw [ih]
      rw [show (n - 1) / 32 = n / 32 by omega, show (n - 1) / 8 % 4 = n / 8 % 4 by omega,
        show 512 * ((n - 1) % 8 + 1) = 512 * (n % 8) by omega, show 512 * (n % 8 + 1) = 512 * (n % 8) + 512 by omega, dotTo_add]
  termination_by n => n
  decreasing_by omega

end

end Cert.KernelIdeal.Hand

end
-- ==== Proof.KI.Val0.lean ====
/-
  The value of product 0. A grid point with kb = 7 closes a run of eight points over one block (bi, bj) of the
  result: the running product there has covered all 4096 contracted positions, so its hyperbolic tangent, entry by
  entry, is the block (bi, bj) of tanh (left · right), and that is what the point writes back. The sixteen such
  blocks tile the result, every entry (r, s) lying in the block of the point 32·(r / 1024) + 8·(s / 1024) + 7, so
  after the run the result matrix holds tanh (left · right) everywhere, whatever it held at entry.
-/
import proofs.«122110_j65481071399768_1_alg».proof.Proof.KI.Acc0
import proofs.«122110_j65481071399768_1_alg».proof.Proof.Spec
import Idealize.ShloMosaic.Lib.Pipeline.Value
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

/-- What a point with kb = 7 writes back: its block (bi, bj) of tanh (left · right). -/
theorem flushed0_eq (c : Dev nD) (t : Fin cfg0.N) (hf : (cfg0.win 2).flush t = true) :
    (dat0 (F := Ideal) V c).flushed 2 t
      = ((cfg0.win 2).blk t).view.read (Elt Ideal) (Cert.Spec.tanhProd (V c main_arg1) (V c main_arg0)) := by
  have hN : cfg0.N = 128 := N_0
  have ht := t.isLt
  have h7 : t.val % 8 = 7 := (flush0_2 t).mp hf
  obtain ⟨-, -, -, -, h20, h21⟩ := idx_facts0 t
  show (cfg0.win 2).cut (grid0.coords t) ((dat0 V c).after 2 t) = _
  rw [after0_2]
  funext y
  obtain ⟨p, q, rfl⟩ : ∃ (p q : Fin 1024), y = ix2 p q := ⟨y 0, y 1, eq_ix2 y⟩
  -- the entry (p, q) of the staging buffer is the entry (p, q) of the running product's hyperbolic tangent
  have e : (cfg0.win 2).xinj (grid0.coords t) (ix2 p q) = (ix2 p q : S1024x1024.Idx) := by
    funext a
    match a with
    | ⟨0, _⟩ => rfl
    | ⟨1, _⟩ => rfl
  show k0_pay3 (accAt0 V c t.val t.isLt) ((cfg0.win 2).xinj (grid0.coords t) (ix2 p q)) = _
  rw [e, k0_pay3_apply, accAt0_apply V c p q t.val t.isLt, h7]
  -- and it lands at (1024·bi + p, 1024·bj + q) of the result
  show _ = Cert.Spec.tanhProd (V c main_arg1) (V c main_arg0) (((cfg0.win 2).blk t).view.emb (ix2 p q))
  refine (tanhProd_apply (V c main_arg1) (V c main_arg0) _ (1024 * (t.val / 32) + p.val) (1024 * (t.val / 8 % 4) + q.val) ?_ ?_).symm
  · show win0_2.index t 0 * 1024 + 1 * p.val = _
    rw [h20]; omega
  · show win0_2.index t 1 * 1024 + 1 * q.val = _
    rw [h21]; omega

/-- Every entry (r, s) of the result lies in the block a point with kb = 7 writes back: the point
    32·(r / 1024) + 8·(s / 1024) + 7. -/
theorem cover0 (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 128 := N_0
  have hlt : 32 * ((i 0).val / 1024) + 8 * ((i 1).val / 1024) + 7 < cfg0.N := by rw [hN]; omega
  refine ⟨⟨32 * ((i 0).val / 1024) + 8 * ((i 1).val / 1024) + 7, hlt⟩, (flush0_2 _).mpr (by show (32 * ((i 0).val / 1024) + 8 * ((i 1).val / 1024) + 7) % 8 = 7; omega), ?_⟩
  obtain ⟨-, -, -, -, h20, h21⟩ := idx_facts0 ⟨32 * ((i 0).val / 1024) + 8 * ((i 1).val / 1024) + 7, hlt⟩
  show i ∈ ((View.whole main_v0).slice (win0_2.rect ⟨32 * ((i 0).val / 1024) + 8 * ((i 1).val / 1024) + 7, hlt⟩)).set
  rw [View.set_slice_whole, Rect.mem_set_unit]
  intro a
  match a with
  | ⟨0, _⟩ =>
    show win0_2.index ⟨32 * ((i 0).val / 1024) + 8 * ((i 1).val / 1024) + 7, hlt⟩ 0 * 1024 ≤ (i 0).val
      ∧ (i 0).val < win0_2.index ⟨32 * ((i 0).val / 1024) + 8 * ((i 1).val / 1024) + 7, hlt⟩ 0 * 1024 + 1024
    rw [h20]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_2.index ⟨32 * ((i 0).val / 1024) + 8 * ((i 1).val / 1024) + 7, hlt⟩ 1 * 1024 ≤ (i 1).val
      ∧ (i 1).val < win0_2.index ⟨32 * ((i 0).val / 1024) + 8 * ((i 1).val / 1024) + 7, hlt⟩ 1 * 1024 + 1024
    rw [h21]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- THE RESULT of product 0: after the run the result matrix holds tanh (left · right). -/
theorem final0 (c : Dev nD) :
    (dat0 (F := Ideal) V c).arrAt 2 cfg0.N = Cert.Spec.tanhProd (V c main_arg1) (V c main_arg0) :=
  (dat0 (F := Ideal) V c).arrAt_eq_of_cover 2 (Cert.Spec.tanhProd (V c main_arg1) (V c main_arg0))
    (fun t hf => flushed0_eq V c t hf) cover0

end

end Cert.KernelIdeal.Hand

end
-- ==== Proof.KI.Pay1.lean ====
/-
  The arithmetic of one grid point of product 1, entry by entry over the extended reals: the zero block is zero
  everywhere; one accumulation step adds, to each entry (p, q) of the running product, the 512 products of row p of
  the left block with column q of the right block; the closing step applies the hyperbolic tangent to each entry.
  A change of float format is the identity on the extended reals, and a cast between equal shapes moves nothing.
-/
import proofs.«122110_j65481071399768_1_alg».proof.Proof.KI.Dat1
import proofs.«122110_j65481071399768_1_alg».proof.Proof.LibRowDims
import Idealize.ShloMosaic.Lib.ValueIdx
import Idealize.ShloMosaic.Lib.Pipeline.Value
import Idealize.ShloMosaic.PureOps.Ideal
import Idealize.ShloMosaic.PureOps.Ideal.Laws
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-- The contraction of a 1024 × 512 block with a 512 × 1024 block is the plain one: rows by columns. -/
theorem dot1_plain : dot_S1024x512_S512x1024_S1024x1024_1_0_0_1_n_n = DotDims.plain 1024 512 1024 := rfl

/-- The zero block is zero at every entry. -/
theorem k1_pay1_apply (p q : Fin 1024) : (k1_pay1 (F := Ideal)) (ix2 p q) = 0 := by
  unfold k1_pay1
  simp only [shapeCast_self]
  exact Ideal.ofBits_zero_f32

/-- One accumulation step at the entry (p, q): the running product's entry plus the 512 products of the left block's
    row p with the right block's column q. -/
theorem k1_pay2_apply (x0 : Vec Ideal S1024x512 .f32) (x1 : Vec Ideal S512x1024 .f32) (s : Vec Ideal S1024x1024 .f32)
    (p q : Fin 1024) :
    k1_pay2 x0 x1 s (ix2 p q) = s (ix2 p q) + ∑ k : Fin 512, x0 (ix2 p k) * x1 (ix2 k q) := by
  unfold k1_pay2
  simp only [shapeCast_self]
  rw [addf_apply, dot1_plain]
  refine congrArg (s (ix2 p q) + ·) ?_
  exact (RowDims.matmul_plain_zero_apply none _ _ p q)

/-- The closing step at an entry: the hyperbolic tangent of the running product's entry. -/
theorem k1_pay3_apply (v : Vec Ideal S1024x1024 .f32) (i : S1024x1024.Idx) : k1_pay3 v i = Ideal.tanh (v i) := rfl

end Cert.KernelIdeal.Hand

end
-- ==== Proof.KI.Blk1.lean ====
/-
  Where the blocks of product 1 sit in their matrices. The grid point t = 32·bi + 8·bj + kb stages the
  1024 × 512 block (bi, kb) of the left matrix and the 512 × 1024 block (kb, bj) of the right matrix: the entry
  (p, k) of the left block is the entry (1024·bi + p, 512·kb + k) of the left matrix, and the entry (k, q) of the
  right block is the entry (512·kb + k, 1024·bj + q) of the right matrix.
-/
import proofs.«122110_j65481071399768_1_alg».proof.Proof.KI.Dat1
import proofs.«122110_j65481071399768_1_alg».proof.Proof.KI.Sums
import proofs.«122110_j65481071399768_1_alg».proof.Proof.Gen.KernelIdeal.Points
import Idealize.ShloMosaic.Lib.ValueIdx
import Idealize.ShloMosaic.Lib.Pipeline.Value
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-- How the three index maps of product 1 read the grid point t = 32·bi + 8·bj + kb: the left matrix's block is
    (bi, kb), the right matrix's block is (kb, bj), the result's block is (bi, bj). -/
theorem idx_facts1 : ∀ t : Fin cfg1.N,
    win1_0.index t (0 : Fin 2) = t.val / 32 ∧ win1_0.index t (1 : Fin 2) = t.val % 8 ∧
    win1_1.index t (0 : Fin 2) = t.val % 8 ∧ win1_1.index t (1 : Fin 2) = (t.val / 8) % 4 ∧
    win1_2.index t (0 : Fin 2) = t.val / 32 ∧ win1_2.index t (1 : Fin 2) = (t.val / 8) % 4 :=
  (by decide +kernel : ∀ t : Fin grid1.N, _)

section
variable (V : (c : Dev nD) → (b : Ref sig .tc) → Buf (Elt Ideal) ((c : Thread nD τ).loc b))

/-- The left block at point t holds rows 1024·bi … of the left matrix and its columns 512·kb …. -/
theorem lblk1_apply (c : Dev nD) (t : Fin cfg1.N) (p : Fin 1024) (k : Fin 512) :
    lblk1 V c t (ix2 p k) = at2 (V c main_arg2) (1024 * (t.val / 32) + p.val) (512 * (t.val % 8) + k.val) := by
  have hN : cfg1.N = 128 := N_1
  have ht := t.isLt
  have hp := p.isLt
  have hk := k.isLt
  obtain ⟨h00, h01, -⟩ := idx_facts1 t
  unfold at2
  rw [dif_pos (by constructor <;> omega)]
  show V c main_arg2 (((cfg1.win 0).blk t).view.emb (ix2 p k)) = _
  refine congrArg (V c main_arg2) ?_
  funext a
  refine Fin.ext ?_
  match a with
  | ⟨0, _⟩ =>
    show win1_0.index t 0 * 1024 + 1 * p.val = 1024 * (t.val / 32) + p.val
    rw [h00]; omega
  | ⟨1, _⟩ =>
    show win1_0.index t 1 * 512 + 1 * k.val = 512 * (t.val % 8) + k.val
    rw [h01]; omega

/-- The right block at point t holds rows 512·kb … of the right matrix and its columns 1024·bj …. -/
theorem rblk1_apply (c : Dev nD) (t : Fin cfg1.N) (k : Fin 512) (q : Fin 1024) :
    rblk1 V c t (ix2 k q) = at2 (V c main_v0) (512 * (t.val % 8) + k.val) (1024 * ((t.val / 8) % 4) + q.val) := by
  have hN : cfg1.N = 128 := N_1
  have ht := t.isLt
  have hq := q.isLt
  have hk := k.isLt
  obtain ⟨-, -, h10, h11, -⟩ := idx_facts1 t
  unfold at2
  rw [dif_pos (by constructor <;> omega)]
  show V c main_v0 (((cfg1.win 1).blk t).view.emb (ix2 k q)) = _
  refine congrArg (V c main_v0) ?_
  funext a
  refine Fin.ext ?_
  match a with
  | ⟨0, _⟩ =>
    show win1_1.index t 0 * 512 + 1 * k.val = 512 * (t.val % 8) + k.val
    rw [h10]; omega
  | ⟨1, _⟩ =>
    show win1_1.index t 1 * 1024 + 1 * q.val = 1024 * ((t.val / 8) % 4) + q.val
    rw [h11]; omega

end

end Cert.KernelIdeal.Hand

end
-- ==== Proof.KI.Acc1.lean ====
/-
  The running product of product 1, entry by entry. After the grid point n = 32·bi + 8·bj + kb the scratch buffer
  holds, at the entry (p, q), the products of row 1024·bi + p of the left matrix with column 1024·bj + q of the
  right matrix summed over the first 512·(kb + 1) contracted positions: the point with kb = 0 starts from zero and
  adds the first 512 products, and every later point of the run adds the next 512 to what the point before left
  (that point has the same bi and bj). Sums of extended reals are re-grouped freely: addition there is associative
  and commutative, and nothing here needs a finite value.
-/
import proofs.«122110_j65481071399768_1_alg».proof.Proof.KI.Pay1
import proofs.«122110_j65481071399768_1_alg».proof.Proof.KI.Blk1
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

/-- One step's contribution at the entry (p, q), read off the matrices. -/
theorem step1_apply (c : Dev nD) (t : Fin cfg1.N) (s : Vec Ideal S1024x1024 .f32) (p q : Fin 1024) :
    k1_pay2 (lblk1 V c t) (rblk1 V c t) s (ix2 p q)
      = s (ix2 p q) + ∑ k : Fin 512, at2 (V c main_arg2) (1024 * (t.val / 32) + p.val) (512 * (t.val % 8) + k.val)
          * at2 (V c main_v0) (512 * (t.val % 8) + k.val) (1024 * ((t.val / 8) % 4) + q.val) := by
  refine (k1_pay2_apply (lblk1 V c t) (rblk1 V c t) s p q).trans ?_
  refine congrArg (s (ix2 p q) + ·) ?_
  refine Finset.sum_congr rfl fun k _ => ?_
  rw [lblk1_apply V c t p k, rblk1_apply V c t k q]

/-- THE RUNNING PRODUCT after point n = 32·bi + 8·bj + kb, at the entry (p, q): row 1024·bi + p of the left matrix
    against column 1024·bj + q of the right matrix, over the first 512·(kb + 1) contracted positions. -/
theorem accAt1_apply (c : Dev nD) (p q : Fin 1024) : ∀ (n : ℕ) (hn : n < cfg1.N),
    accAt1 V c n hn (ix2 p q)
      = dotTo (V c main_arg2) (V c main_v0) (1024 * (n / 32) + p.val) (1024 * ((n / 8) % 4) + q.val) (512 * (n % 8 + 1))
  | n, hn => by
    by_cases h8 : n % 8 = 0
    · -- the first point of a run: zero plus the first 512 products
      refine (congrFun (accAt1_first V c ⟨n, hn⟩ h8) (ix2 p q)).trans ?_
      refine (step1_apply V c ⟨n, hn⟩ (k1_pay1 (F := Ideal)) p q).trans ?_
      rw [k1_pay1_apply, zero_add]
      show _ = dotTo _ _ _ _ (512 * (n % 8 + 1))
      rw [show 512 * (n % 8 + 1) = 0 + 512 by omega, dotTo_add]
      show ∑ k : Fin 512, at2 _ _ (512 * (n % 8) + k.val) * at2 _ (512 * (n % 8) + k.val) _ = _
      rw [h8]
      rw [dotTo_zero, zero_add]
    · -- a later point: what the point before left plus the next 512 products
      have ih := accAt1_apply c p q (n - 1) (by omega)
      refine (congrFun (accAt1_next V c ⟨n, hn⟩ h8) (ix2 p q)).trans ?_
      refine (step1_apply V c ⟨n, hn⟩ _ p q).trans ?_
      show accAt1 V c (n - 1) _ (ix2 p q) + ∑ k : Fin 512, at2 _ _ (512 * (n % 8) + k.val) * at2 _ (512 * (n % 8) + k.val) _ = _
      rw [ih]
      rw [show (n - 1) / 32 = n / 32 by omega, show (n - 1) / 8 % 4 = n / 8 % 4 by omega,
        show 512 * ((n - 1) % 8 + 1) = 512 * (n % 8) by omega, show 512 * (n % 8 + 1) = 512 * (n % 8) + 512 by omega, dotTo_add]
  termination_by n => n
  decreasing_by omega

end

end Cert.KernelIdeal.Hand

end
-- ==== Proof.KI.Val1.lean ====
/-
  The value of product 1. A grid point with kb = 7 closes a run of eight points over one block (bi, bj) of the
  result: the running product there has covered all 4096 contracted positions, so its hyperbolic tangent, entry by
  entry, is the block (bi, bj) of tanh (left · right), and that is what the point writes back. The sixteen such
  blocks tile the result, every entry (r, s) lying in the block of the point 32·(r / 1024) + 8·(s / 1024) + 7, so
  after the run the result matrix holds tanh (left · right) everywhere, whatever it held at entry.
-/
import proofs.«122110_j65481071399768_1_alg».proof.Proof.KI.Acc1
import proofs.«122110_j65481071399768_1_alg».proof.Proof.Spec
import Idealize.ShloMosaic.Lib.Pipeline.Value
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

/-- What a point with kb = 7 writes back: its block (bi, bj) of tanh (left · right). -/
theorem flushed1_eq (c : Dev nD) (t : Fin cfg1.N) (hf : (cfg1.win 2).flush t = true) :
    (dat1 (F := Ideal) V c).flushed 2 t
      = ((cfg1.win 2).blk t).view.read (Elt Ideal) (Cert.Spec.tanhProd (V c main_arg2) (V c main_v0)) := by
  have hN : cfg1.N = 128 := N_1
  have ht := t.isLt
  have h7 : t.val % 8 = 7 := (flush1_2 t).mp hf
  obtain ⟨-, -, -, -, h20, h21⟩ := idx_facts1 t
  show (cfg1.win 2).cut (grid1.coords t) ((dat1 V c).after 2 t) = _
  rw [after1_2]
  funext y
  obtain ⟨p, q, rfl⟩ : ∃ (p q : Fin 1024), y = ix2 p q := ⟨y 0, y 1, eq_ix2 y⟩
  -- the entry (p, q) of the staging buffer is the entry (p, q) of the running product's hyperbolic tangent
  have e : (cfg1.win 2).xinj (grid1.coords t) (ix2 p q) = (ix2 p q : S1024x1024.Idx) := by
    funext a
    match a with
    | ⟨0, _⟩ => rfl
    | ⟨1, _⟩ => rfl
  show k1_pay3 (accAt1 V c t.val t.isLt) ((cfg1.win 2).xinj (grid1.coords t) (ix2 p q)) = _
  rw [e, k1_pay3_apply, accAt1_apply V c p q t.val t.isLt, h7]
  -- and it lands at (1024·bi + p, 1024·bj + q) of the result
  show _ = Cert.Spec.tanhProd (V c main_arg2) (V c main_v0) (((cfg1.win 2).blk t).view.emb (ix2 p q))
  refine (tanhProd_apply (V c main_arg2) (V c main_v0) _ (1024 * (t.val / 32) + p.val) (1024 * (t.val / 8 % 4) + q.val) ?_ ?_).symm
  · show win1_2.index t 0 * 1024 + 1 * p.val = _
    rw [h20]; omega
  · show win1_2.index t 1 * 1024 + 1 * q.val = _
    rw [h21]; omega

/-- Every entry (r, s) of the result lies in the block a point with kb = 7 writes back: the point
    32·(r / 1024) + 8·(s / 1024) + 7. -/
theorem cover1 (i : S4096x4096.Idx) :
    ∃ t : Fin cfg1.N, (cfg1.win 2).flush t = true ∧ i ∈ ((cfg1.win 2).blk t).view.set := by
  have h0 : (i 0).val < 4096 := (i 0).isLt
  have h1 : (i 1).val < 4096 := (i 1).isLt
  have hN : cfg1.N = 128 := N_1
  have hlt : 32 * ((i 0).val / 1024) + 8 * ((i 1).val / 1024) + 7 < cfg1.N := by rw [hN]; omega
  refine ⟨⟨32 * ((i 0).val / 1024) + 8 * ((i 1).val / 1024) + 7, hlt⟩, (flush1_2 _).mpr (by show (32 * ((i 0).val / 1024) + 8 * ((i 1).val / 1024) + 7) % 8 = 7; omega), ?_⟩
  obtain ⟨-, -, -, -, h20, h21⟩ := idx_facts1 ⟨32 * ((i 0).val / 1024) + 8 * ((i 1).val / 1024) + 7, hlt⟩
  show i ∈ ((View.whole main_v1).slice (win1_2.rect ⟨32 * ((i 0).val / 1024) + 8 * ((i 1).val / 1024) + 7, hlt⟩)).set
  rw [View.set_slice_whole, Rect.mem_set_unit]
  intro a
  match a with
  | ⟨0, _⟩ =>
    show win1_2.index ⟨32 * ((i 0).val / 1024) + 8 * ((i 1).val / 1024) + 7, hlt⟩ 0 * 1024 ≤ (i 0).val
      ∧ (i 0).val < win1_2.index ⟨32 * ((i 0).val / 1024) + 8 * ((i 1).val / 1024) + 7, hlt⟩ 0 * 1024 + 1024
    rw [h20]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win1_2.index ⟨32 * ((i 0).val / 1024) + 8 * ((i 1).val / 1024) + 7, hlt⟩ 1 * 1024 ≤ (i 1).val
      ∧ (i 1).val < win1_2.index ⟨32 * ((i 0).val / 1024) + 8 * ((i 1).val / 1024) + 7, hlt⟩ 1 * 1024 + 1024
    rw [h21]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- THE RESULT of product 1: after the run the result matrix holds tanh (left · right). -/
theorem final1 (c : Dev nD) :
    (dat1 (F := Ideal) V c).arrAt 2 cfg1.N = Cert.Spec.tanhProd (V c main_arg2) (V c main_v0) :=
  (dat1 (F := Ideal) V c).arrAt_eq_of_cover 2 (Cert.Spec.tanhProd (V c main_arg2) (V c main_v0))
    (fun t hf => flushed1_eq V c t hf) cover1

end

end Cert.KernelIdeal.Hand

end
-- ==== Proof.KI.Pay2.lean ====
/-
  The arithmetic of one grid point of product 2, entry by entry over the extended reals: the zero block is zero
  everywhere; one accumulation step adds, to each entry (p, q) of the running product, the 512 products of row p of
  the left block with column q of the right block; the closing step applies the hyperbolic tangent to each entry.
  A change of float format is the identity on the extended reals, and a cast between equal shapes moves nothing.
-/
import proofs.«122110_j65481071399768_1_alg».proof.Proof.KI.Dat2
import proofs.«122110_j65481071399768_1_alg».proof.Proof.LibRowDims
import Idealize.ShloMosaic.Lib.ValueIdx
import Idealize.ShloMosaic.Lib.Pipeline.Value
import Idealize.ShloMosaic.PureOps.Ideal
import Idealize.ShloMosaic.PureOps.Ideal.Laws
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-- The contraction of a 1024 × 512 block with a 512 × 1024 block is the plain one: rows by columns. -/
theorem dot2_plain : dot_S1024x512_S512x1024_S1024x1024_1_0_0_1_n_n = DotDims.plain 1024 512 1024 := rfl

/-- The zero block is zero at every entry. -/
theorem k2_pay1_apply (p q : Fin 1024) : (k2_pay1 (F := Ideal)) (ix2 p q) = 0 := by
  unfold k2_pay1
  simp only [shapeCast_self]
  exact Ideal.ofBits_zero_f32

/-- One accumulation step at the entry (p, q): the running product's entry plus the 512 products of the left block's
    row p with the right block's column q. -/
theorem k2_pay2_apply (x0 : Vec Ideal S1024x512 .f32) (x1 : Vec Ideal S512x1024 .f32) (s : Vec Ideal S1024x1024 .f32)
    (p q : Fin 1024) :
    k2_pay2 x0 x1 s (ix2 p q) = s (ix2 p q) + ∑ k : Fin 512, x0 (ix2 p k) * x1 (ix2 k q) := by
  unfold k2_pay2
  simp only [shapeCast_self]
  rw [addf_apply, dot2_plain]
  refine congrArg (s (ix2 p q) + ·) ?_
  exact (RowDims.matmul_plain_zero_apply none _ _ p q)

/-- The closing step at an entry: the hyperbolic tangent of the running product's entry. -/
theorem k2_pay3_apply (v : Vec Ideal S1024x1024 .f32) (i : S1024x1024.Idx) : k2_pay3 v i = Ideal.tanh (v i) := rfl

end Cert.KernelIdeal.Hand

end
-- ==== Proof.KI.Blk2.lean ====
/-
  Where the blocks of product 2 sit in their matrices. The grid point t = 32·bi + 8·bj + kb stages the
  1024 × 512 block (bi, kb) of the left matrix and the 512 × 1024 block (kb, bj) of the right matrix: the entry
  (p, k) of the left block is the entry (1024·bi + p, 512·kb + k) of the left matrix, and the entry (k, q) of the
  right block is the entry (512·kb + k, 1024·bj + q) of the right matrix.
-/
import proofs.«122110_j65481071399768_1_alg».proof.Proof.KI.Dat2
import proofs.«122110_j65481071399768_1_alg».proof.Proof.KI.Sums
import proofs.«122110_j65481071399768_1_alg».proof.Proof.Gen.KernelIdeal.Points
import Idealize.ShloMosaic.Lib.ValueIdx
import Idealize.ShloMosaic.Lib.Pipeline.Value
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

/-- How the three index maps of product 2 read the grid point t = 32·bi + 8·bj + kb: the left matrix's block is
    (bi, kb), the right matrix's block is (kb, bj), the result's block is (bi, bj). -/
theorem idx_facts2 : ∀ t : Fin cfg2.N,
    win2_0.index t (0 : Fin 2) = t.val / 32 ∧ win2_0.index t (1 : Fin 2) = t.val % 8 ∧
    win2_1.index t (0 : Fin 2) = t.val % 8 ∧ win2_1.index t (1 : Fin 2) = (t.val / 8) % 4 ∧
    win2_2.index t (0 : Fin 2) = t.val / 32 ∧ win2_2.index t (1 : Fin 2) = (t.val / 8) % 4 :=
  (by decide +kernel : ∀ t : Fin grid2.N, _)

section
variable (V : (c : Dev nD) → (b : Ref sig .tc) → Buf (Elt Ideal) ((c : Thread nD τ).loc b))

/-- The left block at point t holds rows 1024·bi … of the left matrix and its columns 512·kb …. -/
theorem lblk2_apply (c : Dev nD) (t : Fin cfg2.N) (p : Fin 1024) (k : Fin 512) :
    lblk2 V c t (ix2 p k) = at2 (V c main_arg3) (1024 * (t.val / 32) + p.val) (512 * (t.val % 8) + k.val) := by
  have hN : cfg2.N = 128 := N_2
  have ht := t.isLt
  have hp := p.isLt
  have hk := k.isLt
  obtain ⟨h00, h01, -⟩ := idx_facts2 t
  unfold at2
  rw [dif_pos (by constructor <;> omega)]
  show V c main_arg3 (((cfg2.win 0).blk t).view.emb (ix2 p k)) = _
  refine congrArg (V c main_arg3) ?_
  funext a
  refine Fin.ext ?_
  match a with
  | ⟨0, _⟩ =>
    show win2_0.index t 0 * 1024 + 1 * p.val = 1024 * (t.val / 32) + p.val
    rw [h00]; omega
  | ⟨1, _⟩ =>
    show win2_0.index t 1 * 512 + 1 * k.val = 512 * (t.val % 8) + k.val
    rw [h01]; omega

/-- The right block at point t holds rows 512·kb … of the right matrix and its columns 1024·bj …. -/
theorem rblk2_apply (c : Dev nD) (t : Fin cfg2.N) (k : Fin 512) (q : Fin 1024) :
    rblk2 V c t (ix2 k q) = at2 (V c main_v1) (512 * (t.val % 8) + k.val) (1024 * ((t.val / 8) % 4) + q.val) := by
  have hN : cfg2.N = 128 := N_2
  have ht := t.isLt
  have hq := q.isLt
  have hk := k.isLt
  obtain ⟨-, -, h10, h11, -⟩ := idx_facts2 t
  unfold at2
  rw [dif_pos (by constructor <;> omega)]
  show V c main_v1 (((cfg2.win 1).blk t).view.emb (ix2 k q)) = _
  refine congrArg (V c main_v1) ?_
  funext a
  refine Fin.ext ?_
  match a with
  | ⟨0, _⟩ =>
    show win2_1.index t 0 * 512 + 1 * k.val = 512 * (t.val % 8) + k.val
    rw [h10]; omega
  | ⟨1, _⟩ =>
    show win2_1.index t 1 * 1024 + 1 * q.val = 1024 * ((t.val / 8) % 4) + q.val
    rw [h11]; omega

end

end Cert.KernelIdeal.Hand

end
-- ==== Proof.KI.Acc2.lean ====
/-
  The running product of product 2, entry by entry. After the grid point n = 32·bi + 8·bj + kb the scratch buffer
  holds, at the entry (p, q), the products of row 1024·bi + p of the left matrix with column 1024·bj + q of the
  right matrix summed over the first 512·(kb + 1) contracted positions: the point with kb = 0 starts from zero and
  adds the first 512 products, and every later point of the run adds the next 512 to what the point before left
  (that point has the same bi and bj). Sums of extended reals are re-grouped freely: addition there is associative
  and commutative, and nothing here needs a finite value.
-/
import proofs.«122110_j65481071399768_1_alg».proof.Proof.KI.Pay2
import proofs.«122110_j65481071399768_1_alg».proof.Proof.KI.Blk2
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

/-- One step's contribution at the entry (p, q), read off the matrices. -/
theorem step2_apply (c : Dev nD) (t : Fin cfg2.N) (s : Vec Ideal S1024x1024 .f32) (p q : Fin 1024) :
    k2_pay2 (lblk2 V c t) (rblk2 V c t) s (ix2 p q)
      = s (ix2 p q) + ∑ k : Fin 512, at2 (V c main_arg3) (1024 * (t.val / 32) + p.val) (512 * (t.val % 8) + k.val)
          * at2 (V c main_v1) (512 * (t.val % 8) + k.val) (1024 * ((t.val / 8) % 4) + q.val) := by
  refine (k2_pay2_apply (lblk2 V c t) (rblk2 V c t) s p q).trans ?_
  refine congrArg (s (ix2 p q) + ·) ?_
  refine Finset.sum_congr rfl fun k _ => ?_
  rw [lblk2_apply V c t p k, rblk2_apply V c t k q]

/-- THE RUNNING PRODUCT after point n = 32·bi + 8·bj + kb, at the entry (p, q): row 1024·bi + p of the left matrix
    against column 1024·bj + q of the right matrix, over the first 512·(kb + 1) contracted positions. -/
theorem accAt2_apply (c : Dev nD) (p q : Fin 1024) : ∀ (n : ℕ) (hn : n < cfg2.N),
    accAt2 V c n hn (ix2 p q)
      = dotTo (V c main_arg3) (V c main_v1) (1024 * (n / 32) + p.val) (1024 * ((n / 8) % 4) + q.val) (512 * (n % 8 + 1))
  | n, hn => by
    by_cases h8 : n % 8 = 0
    · -- the first point of a run: zero plus the first 512 products
      refine (congrFun (accAt2_first V c ⟨n, hn⟩ h8) (ix2 p q)).trans ?_
      refine (step2_apply V c ⟨n, hn⟩ (k2_pay1 (F := Ideal)) p q).trans ?_
      rw [k2_pay1_apply, zero_add]
      show _ = dotTo _ _ _ _ (512 * (n % 8 + 1))
      rw [show 512 * (n % 8 + 1) = 0 + 512 by omega, dotTo_add]
      show ∑ k : Fin 512, at2 _ _ (512 * (n % 8) + k.val) * at2 _ (512 * (n % 8) + k.val) _ = _
      rw [h8]
      rw [dotTo_zero, zero_add]
    · -- a later point: what the point before left plus the next 512 products
      have ih := accAt2_apply c p q (n - 1) (by omega)
      refine (congrFun (accAt2_next V c ⟨n, hn⟩ h8) (ix2 p q)).trans ?_
      refine (step2_apply V c ⟨n, hn⟩ _ p q).trans ?_
      show accAt2 V c (n - 1) _ (ix2 p q) + ∑ k : Fin 512, at2 _ _ (512 * (n % 8) + k.val) * at2 _ (512 * (n % 8) + k.val) _ = _
      rw [ih]
      rw [show (n - 1) / 32 = n / 32 by omega, show (n - 1) / 8 % 4 = n / 8 % 4 by omega,
        show 512 * ((n - 1) % 8 + 1) = 512 * (n % 8) by omega, show 512 * (n % 8 + 1) = 512 * (n % 8) + 512 by omega, dotTo_add]
  termination_by n => n
  decreasing_by omega

end

end Cert.KernelIdeal.Hand

end
-- ==== Proof.KI.Val2.lean ====
/-
  The value of product 2. A grid point with kb = 7 closes a run of eight points over one block (bi, bj) of the
  result: the running product there has covered all 4096 contracted positions, so its hyperbolic tangent, entry by
  entry, is the block (bi, bj) of tanh (left · right), and that is what the point writes back. The sixteen such
  blocks tile the result, every entry (r, s) lying in the block of the point 32·(r / 1024) + 8·(s / 1024) + 7, so
  after the run the result matrix holds tanh (left · right) everywhere, whatever it held at entry.
-/
import proofs.«122110_j65481071399768_1_alg».proof.Proof.KI.Acc2
import proofs.«122110_j65481071399768_1_alg».proof.Proof.Spec
import Idealize.ShloMosaic.Lib.Pipeline.Value
set_option maxRecDepth 16384

noncomputable section

open scoped BigOperators

namespace Cert.KernelIdeal.Hand

open Idealize.ShloMosaic Idealize.ShloMosaic.TcCoe Idealize.ShloMosaic.Tactic
open Idealize.ShloMosaic.ValueIdx
open Idealize.SL Idealize.SL.Sem
open Idealize.ShloMosaic.Pipeline (Dat Cfg Window)
open Cert.KernelIdeal Cert.KernelIdeal.Gen

section
variable (V : (c : Dev nD) → (b : Ref sig .tc) → Buf (Elt Ideal) ((c : Thread nD τ).loc b))

/-- What a point with kb = 7 writes back: its block (bi, bj) of tanh (left · right). -/
theorem flushed2_eq (c : Dev nD) (t : Fin cfg2.N) (hf : (cfg2.win 2).flush t = true) :
    (dat2 (F := Ideal) V c).flushed 2 t
      = ((cfg2.win 2).blk t).view.read (Elt Ideal) (Cert.Spec.tanhProd (V c main_arg3) (V c main_v1)) := by
  have hN : cfg2.N = 128 := N_2
  have ht := t.isLt
  have h7 : t.val % 8 = 7 := (flush2_2 t).mp hf
  obtain ⟨-, -, -, -, h20, h21⟩ := idx_facts2 t
  show (cfg2.win 2).cut (grid2.coords t) ((dat2 V c).after 2 t) = _
  rw [after2_2]
  funext y
  obtain ⟨p, q, rfl⟩ : ∃ (p q : Fin 1024), y = ix2 p q := ⟨y 0, y 1, eq_ix2 y⟩
  -- the entry (p, q) of the staging buffer is the entry (p, q) of the running product's hyperbolic tangent
  have e : (cfg2.win 2).xinj (grid2.coords t) (ix2 p q) = (ix2 p q : S1024x1024.Idx) := by
    funext a
    match a with
    | ⟨0, _⟩ => rfl
    | ⟨1, _⟩ => rfl
  show k2_pay3 (accAt2 V c t.val t.isLt) ((cfg2.win 2).xinj (grid2.coords t) (ix2 p q)) = _
  rw [e, k2_pay3_apply, accAt2_apply V c p q t.val t.isLt, h7]
  -- and it lands at (1024·bi + p, 1024·bj + q) of the result
  show _ = Cert.Spec.tanhProd (V c main_arg3) (V c main_v1) (((cfg2.win 2).blk t).view.emb (ix2 p q))
  refine (tanhProd_apply (V c main_arg3) (V c main_v1) _ (1024 * (t.val / 32) + p.val) (1024 * (t.val / 8 % 4) + q.val) ?_ ?_).symm
  · show win2_2.index t 0 * 1024 + 1 * p.val = _
    rw [h20]; omega
  · show win2_2.index t 1 * 1024 + 1 * q.val = _
    rw [h21]; omega

/-- Every entry (r, s) of the result lies in the block a point with kb = 7 writes back: the point
    32·(r / 1024) + 8·(s / 1024) + 7. -/
theorem cover2 (i : S4096x4096.Idx) :
    ∃ t : Fin cfg2.N, (cfg2.win 2).flush t = true ∧ i ∈ ((cfg2.win 2).blk t).view.set := by
  have h0 : (i 0).val < 4096 := (i 0).isLt
  have h1 : (i 1).val < 4096 := (i 1).isLt
  have hN : cfg2.N = 128 := N_2
  have hlt : 32 * ((i 0).val / 1024) + 8 * ((i 1).val / 1024) + 7 < cfg2.N := by rw [hN]; omega
  refine ⟨⟨32 * ((i 0).val / 1024) + 8 * ((i 1).val / 1024) + 7, hlt⟩, (flush2_2 _).mpr (by show (32 * ((i 0).val / 1024) + 8 * ((i 1).val / 1024) + 7) % 8 = 7; omega), ?_⟩
  obtain ⟨-, -, -, -, h20, h21⟩ := idx_facts2 ⟨32 * ((i 0).val / 1024) + 8 * ((i 1).val / 1024) + 7, hlt⟩
  show i ∈ ((View.whole main_v2).slice (win2_2.rect ⟨32 * ((i 0).val / 1024) + 8 * ((i 1).val / 1024) + 7, hlt⟩)).set
  rw [View.set_slice_whole, Rect.mem_set_unit]
  intro a
  match a with
  | ⟨0, _⟩ =>
    show win2_2.index ⟨32 * ((i 0).val / 1024) + 8 * ((i 1).val / 1024) + 7, hlt⟩ 0 * 1024 ≤ (i 0).val
      ∧ (i 0).val < win2_2.index ⟨32 * ((i 0).val / 1024) + 8 * ((i 1).val / 1024) + 7, hlt⟩ 0 * 1024 + 1024
    rw [h20]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win2_2.index ⟨32 * ((i 0).val / 1024) + 8 * ((i 1).val / 1024) + 7, hlt⟩ 1 * 1024 ≤ (i 1).val
      ∧ (i 1).val < win2_2.index ⟨32 * ((i 0).val / 1024) + 8 * ((i 1).val / 1024) + 7, hlt⟩ 1 * 1024 + 1024
    rw [h21]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- THE RESULT of product 2: after the run the result matrix holds tanh (left · right). -/
theorem final2 (c : Dev nD) :
    (dat2 (F := Ideal) V c).arrAt 2 cfg2.N = Cert.Spec.tanhProd (V c main_arg3) (V c main_v1) :=
  (dat2 (F := Ideal) V c).arrAt_eq_of_cover 2 (Cert.Spec.tanhProd (V c main_arg3) (V c main_v1))
    (fun t hf => flushed2_eq V c t hf) cover2

end

end Cert.KernelIdeal.Hand

end
-- ==== Proof.KI.Value.lean ====
/-
  The value of the idealized program: each product's result matrix is the hyperbolic tangent of the matrix product of
  its two operands, entry by entry over the extended reals; the second and third products read the matrix the product
  before them wrote; the head's operations then make the result. So the result is the specification's
  `head (tanhProd W2 (tanhProd W1 (tanhProd W0 x)))` of the four arguments.
-/
import proofs.«122110_j65481071399768_1_alg».proof.Proof.KI.Tail
import proofs.«122110_j65481071399768_1_alg».proof.Proof.KI.Val0
import proofs.«122110_j65481071399768_1_alg».proof.Proof.KI.Val1
import proofs.«122110_j65481071399768_1_alg».proof.Proof.KI.Val2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt Ideal) ℓ)

/-- The network's value on the launch memory's four arguments. -/
abbrev net (c : Dev nD) : FVec Ideal Cert.Spec.Out .f32 :=
  Cert.Spec.head (Cert.Spec.tanhProd (m ((c : Thread nD τ).loc main_arg3))
    (Cert.Spec.tanhProd (m ((c : Thread nD τ).loc main_arg2))
      (Cert.Spec.tanhProd (m ((c : Thread nD τ).loc main_arg1)) (m ((c : Thread nD τ).loc main_arg0)))))

/-- After the first product its result matrix is `tanh (W0 · x)`. -/
theorem E1_v0 (c : Dev nD) :
    E1 (F := Ideal) m c main_v0
      = Cert.Spec.tanhProd (m ((c : Thread nD τ).loc main_arg1)) (m ((c : Thread nD τ).loc main_arg0)) :=
  (W1_arr m c 2).trans (final0 (E0 m) c)

/-- After the second, `tanh (W1 · tanh (W0 · x))`: its left operand is an argument no product writes, its right operand
    the first product's result. -/
theorem E2_v1 (c : Dev nD) :
    E2 (F := Ideal) m c main_v1
      = Cert.Spec.tanhProd (m ((c : Thread nD τ).loc main_arg2))
          (Cert.Spec.tanhProd (m ((c : Thread nD τ).loc main_arg1)) (m ((c : Thread nD τ).loc main_arg0))) :=
  (W2_arr m c 2).trans ((final1 (E1 m) c).trans
    (congrArg₂ Cert.Spec.tanhProd (W1_of_ne m c main_arg2 (by decide)) (E1_v0 m c)))

/-- After the third, the three products composed. -/
theorem W3_v2 (c : Dev nD) :
    W3 (F := Ideal) m c (Proc.devRef .tc main_v2)
      = Cert.Spec.tanhProd (m ((c : Thread nD τ).loc main_arg3))
          (Cert.Spec.tanhProd (m ((c : Thread nD τ).loc main_arg2))
            (Cert.Spec.tanhProd (m ((c : Thread nD τ).loc main_arg1)) (m ((c : Thread nD τ).loc main_arg0)))) :=
  (W3_arr m c 2).trans ((final2 (E2 m) c).trans
    (congrArg₂ Cert.Spec.tanhProd ((W2_of_ne m c main_arg3 (by decide)).trans (W1_of_ne m c main_arg3 (by decide))) (E2_v1 m c)))

/-- The result buffer at the end holds the network's value. -/
theorem result_eq (c : Dev nD) : W4 (F := Ideal) m c (Proc.devRef .tc main_v19) = net m c :=
  (tail_eq m c).trans (congrArg Cert.Spec.head (W3_v2 m c))

/-- THE VALUE RUN: every weakly fair execution terminates with the result at the network's value and the four
    arguments as launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v19) = net m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m c), (h c).2⟩) (run_main (F := Ideal) m ρ)

end Cert.KernelIdeal.Hand

end
-- ==== Proof.Ref.lean ====
/-
  The reference network is the specification.

  The reference computes three stages `h ↦ tanh (W · h)` — a matrix product over the 4096 contracted positions
  followed by the hyperbolic tangent — from the input `x` with the weights `W0`, `W1`, `W2` in turn, and then
  the head: row means, cosine, the vector `[q, 1 − q]`, softmax.
  * Each product stage is `Cert.Spec.tanhProd`: over the extended reals the product's entry (p, q) is the sum
    over k of `W (p, k) · h (k, q)`, and the hyperbolic tangent is taken entry by entry (`tanh_dot`).
  * Its last twenty-three operations, applied to the third stage's result, are `Cert.Spec.head`, operation by
    operation with the same literals.
  So the reference's result is `head (tanhProd W2 (tanhProd W1 (tanhProd W0 x)))` (`result_eq`), every run of it
  ends with that array in its result and the four arguments unchanged (`run`), and in particular it runs to
  the end leaving its arguments as they were (`frame_ri`).
-/
import proofs.«122110_j65481071399768_1_alg».proof.Defs
import proofs.«122110_j65481071399768_1_alg».proof.Proof.Gen.ReferenceIdeal
import proofs.«122110_j65481071399768_1_alg».proof.Proof.Gen.Pre_finite_inputs
import proofs.«122110_j65481071399768_1_alg».proof.Proof.Gen.ReferenceIdeal.Run
import proofs.«122110_j65481071399768_1_alg».proof.Proof.Gen.ReferenceIdeal.Read
import proofs.«122110_j65481071399768_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-! ## A product stage is `tanhProd` -/

/-- The hyperbolic tangent of the matrix product `l · r`, over the extended reals, is `tanhProd l r`: its entry
    (p, q) is tanh (∑ k, l (p, k) · r (k, q)). -/
theorem tanh_dot (l r : FVec Ideal Cert.Spec.Mat .f32) :
    Host.tanh (Host.dotGeneral dot_S4096x4096_S4096x4096_S4096x4096_1_0_0_1_n_n none l r) = Cert.Spec.tanhProd l r := by
  funext i
  -- the left operand is read at (row of i, k), the right at (k, column of i)
  have hl : ∀ k : Fin 4096, Read.lidx_main_v0 i k = ix2 (i 0) k := fun k =>
    funext fun a => Fin.ext (by match a with | ⟨0, _⟩ => rfl | ⟨1, _⟩ => rfl)
  have hr : ∀ k : Fin 4096, Read.ridx_main_v0 i k = ix2 k (i 1) := fun k =>
    funext fun a => Fin.ext (by match a with | ⟨0, _⟩ => rfl | ⟨1, _⟩ => rfl)
  show Ideal.tanh (Read.val_main_v0 (F := Ideal) r l i) = Ideal.tanh _
  rw [Read.val_main_v0_apply]
  simp only [hl, hr]
  rfl

/-! ## The reference's result is the specification -/

/-- The third stage of the reference is the three-fold `tanhProd`. -/
theorem stage3_eq (x W0 W1 W2 : FVec Ideal Cert.Spec.Mat .f32) :
    Read.val_main_v5 (F := Ideal) x W0 W1 W2
      = Cert.Spec.tanhProd W2 (Cert.Spec.tanhProd W1 (Cert.Spec.tanhProd W0 x)) := by
  unfold Read.val_main_v5 Read.val_main_v4 Read.val_main_v3 Read.val_main_v2 Read.val_main_v1 Read.val_main_v0
  rw [tanh_dot, tanh_dot, tanh_dot]

/-- The reference's result, as a function of the input and the three weights, is the head of the three-fold
    `tanhProd`: the operations after the third stage are the head's, one by one. -/
theorem result_eq (x W0 W1 W2 : FVec Ideal Cert.Spec.Mat .f32) :
    Read.val_main_v22 (F := Ideal) x W0 W1 W2
      = Cert.Spec.head (Cert.Spec.tanhProd W2 (Cert.Spec.tanhProd W1 (Cert.Spec.tanhProd W0 x))) := by
  rw [← stage3_eq]
  rfl

/-- The same, for the result as the run states it: of the argument arrays as the memory holds them at the start. -/
theorem result_eq_mem (m : (ℓ : Loc nD τ sig) → Buf (Elt Ideal) ℓ) (c : Dev nD) :
    Value.res_out0 (F := Ideal) m c
      = Cert.Spec.head (Cert.Spec.tanhProd (m ((c.tc : Thread nD τ).loc main_arg3))
          (Cert.Spec.tanhProd (m ((c.tc : Thread nD τ).loc main_arg2))
            (Cert.Spec.tanhProd (m ((c.tc : Thread nD τ).loc main_arg1)) (m ((c.tc : Thread nD τ).loc main_arg0))))) :=
  (Read.val_main_v22_eq (F := Ideal) m c).trans (result_eq _ _ _ _)

/-! ## The runs -/

/-- Every weakly fair execution of the reference ends, nothing faulting, with the specification's value of the
    arguments in its result and the four arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v22)
          = Cert.Spec.head (Cert.Spec.tanhProd (m ((c.tc : Thread Cert.ReferenceIdeal.nD Cert.ReferenceIdeal.τ).loc Cert.ReferenceIdeal.main_arg3))
              (Cert.Spec.tanhProd (m ((c.tc : Thread Cert.ReferenceIdeal.nD Cert.ReferenceIdeal.τ).loc Cert.ReferenceIdeal.main_arg2))
                (Cert.Spec.tanhProd (m ((c.tc : Thread Cert.ReferenceIdeal.nD Cert.ReferenceIdeal.τ).loc Cert.ReferenceIdeal.main_arg1))
                  (m ((c.tc : Thread Cert.ReferenceIdeal.nD Cert.ReferenceIdeal.τ).loc Cert.ReferenceIdeal.main_arg0)))))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono
    (fun _ h c => ⟨(h c).1.trans (result_eq_mem m c), (h c).2⟩)
    (Cert.ReferenceIdeal.Value.run (F := Ideal) m ρ)

/-- The reference runs to the end, nothing faulting, and leaves its four arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of the three-layer tanh network with a softmax head.

  The kernel computes `tanh (W · h)` three times, each as a pipeline over a 4 × 4 × 8 grid that accumulates the
  product of 1024 × 512 and 512 × 1024 blocks into a running product, reset at the first block of the contracted axis
  and passed through the hyperbolic tangent at the last; then the head (row means, cosine, `[q, 1 − q]`, softmax) as
  host operations. The reference computes the same with whole matrix products. Over the extended reals a sum may be
  taken block by block, so the two are one function of the four arguments: `head (tanhProd W2 (tanhProd W1 (tanhProd
  W0 x)))`. Addition alone is regrouped, never distributed, so finiteness of the inputs is not used.

  The frames: each program runs to its end, faults nowhere and leaves its arguments unchanged — for the two kernel
  programs by the run of their three pipelines and the head's operations, for the reference by its run.
-/
import proofs.«122110_j65481071399768_1_alg».proof.Defs
import proofs.«122110_j65481071399768_1_alg».proof.Proof.Gen.Kernel
import proofs.«122110_j65481071399768_1_alg».proof.Proof.Gen.KernelIdeal
import proofs.«122110_j65481071399768_1_alg».proof.Proof.Gen.ReferenceIdeal
import proofs.«122110_j65481071399768_1_alg».proof.Proof.Gen.Pre_finite_inputs
import proofs.«122110_j65481071399768_1_alg».proof.Proof.K.Run
import proofs.«122110_j65481071399768_1_alg».proof.Proof.KI.Value
import proofs.«122110_j65481071399768_1_alg».proof.Proof.Ref

noncomputable section

namespace Cert.Proof

open Idealize.ShloMosaic Idealize.ShloMosaic.TcCoe Idealize.SL.Sem

/-- The word-level kernel program runs and keeps its arguments: its run, the result forgotten. -/
theorem frame_k : Cert.frame_Kernel := fun m ρ _ =>
  (θ_run Cert.Kernel.defs _ _).mono (fun _ h c => (h c).2) (Cert.Kernel.Hand.run_main (F := Bits) m ρ)

/-- The idealized kernel program likewise. -/
theorem frame_ki : Cert.frame_KernelIdeal := fun m ρ _ =>
  (θ_run Cert.KernelIdeal.defs _ _).mono (fun _ h c => (h c).2) (Cert.KernelIdeal.Hand.run_main (F := Ideal) m ρ)

/-- Both idealized programs end with the network's value of their (agreeing) arguments. -/
theorem algebraic : Cert.algebraic_KernelIdeal_ReferenceIdeal := by
  intro m ρ m' ρ' _ hagree
  refine ⟨fun c => Cert.KernelIdeal.Hand.net m c, Cert.KernelIdeal.Hand.run_value m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
